-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.truncf_extf.Statement Cert.KernelIdeal.S32768 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216 : Shape := ⟨1, ![16777216]⟩
abbrev S_ : Shape := ⟨0, ![]⟩

class Facts : Prop where
  bcast_S_S16777216 : S_.BroadcastsInDim S16777216 (![] : Fin 0 → Fin S16777216.rank)
  reducesTo_S16777216_S_d0 : S16777216.ReducesTo [0] S_
  h_S_ : 0 < S_.numel

variable [Facts]

def fn {F : FTy → Type} [FloatOps F] (main_arg0 : FVec F S16777216 .f32) (main_arg1 : IVec S16777216 32) (main_arg2 : IVec S16777216 32) : IVec S_ 1 :=
  let main_v0 : FVec F S16777216 .f32 := Host.absf main_arg0
  let main_cst : FVec F S_ .f32 := constant S_ .f32 0x7F800000#32
  let main_v1 : FVec F S16777216 .f32 := broadcastInDim S16777216 ![] bcast_S_S16777216 main_cst
  let main_v2 : IVec S16777216 1 := cmpf .olt main_v0 main_v1
  let main_c : IVec S_ 1 := constantI S_ 1 1#1
  let main_v3 : IVec S_ 1 := (fun x v => Host.reduce IntOp.andi x v reducesTo_S16777216_S_d0 h_S_) main_v2 main_c
  let main_c_0 : IVec S_ 32 := constantI S_ 32 0#32
  let main_v4 : IVec S16777216 32 := broadcastInDim S16777216 ![] bcast_S_S16777216 main_c_0
  let main_v5 : IVec S16777216 1 := cmpi .eq main_arg1 main_v4
  let main_c_1 : IVec S_ 32 := constantI S_ 32 1#32
  let main_v6 : IVec S16777216 32 := broadcastInDim S16777216 ![] bcast_S_S16777216 main_c_1
  let main_v7 : IVec S16777216 1 := cmpi .eq main_arg1 main_v6
  let main_v8 : IVec S16777216 1 := ori main_v5 main_v7
  let main_c_2 : IVec S_ 1 := constantI S_ 1 1#1
  let main_v9 : IVec S_ 1 := (fun x v => Host.reduce IntOp.andi x v reducesTo_S16777216_S_d0 h_S_) main_v8 main_c_2
  let main_v10 : IVec S_ 1 := andi main_v3 main_v9
  main_v10
-- ==== Kernel.lean ====
abbrev S16777216 : Shape := ⟨1, ![16777216]⟩
abbrev S65536x256 : Shape := ⟨2, ![65536, 256]⟩
abbrev S2x96x256 : Shape := ⟨3, ![2, 96, 256]⟩
abbrev S128x256 : Shape := ⟨2, ![128, 256]⟩
abbrev S1x96x256 : Shape := ⟨3, ![1, 96, 256]⟩
abbrev S96x256 : Shape := ⟨2, ![96, 256]⟩
abbrev S32768 : Shape := ⟨1, ![32768]⟩
abbrev S1x32768 : Shape := ⟨2, ![1, 32768]⟩
abbrev S6x32768 : Shape := ⟨2, ![6, 32768]⟩
abbrev S16x1 : Shape := ⟨2, ![16, 1]⟩
abbrev S16x32768 : Shape := ⟨2, ![16, 32768]⟩
abbrev S1x256 : Shape := ⟨2, ![1, 256]⟩
abbrev S32768x1 : Shape := ⟨2, ![32768, 1]⟩
abbrev S32768x256 : Shape := ⟨2, ![32768, 256]⟩
abbrev S1x6x32768 : Shape := ⟨3, ![1, 6, 32768]⟩
abbrev S16x1x32768 : Shape := ⟨3, ![16, 1, 32768]⟩
abbrev S16x6x32768 : Shape := ⟨3, ![16, 6, 32768]⟩
abbrev S96x32768 : Shape := ⟨2, ![96, 32768]⟩
abbrev S_ : Shape := ⟨0, ![]⟩
abbrev S16x6x256 : Shape := ⟨3, ![16, 6, 256]⟩
abbrev S16x1x256 : Shape := ⟨3, ![16, 1, 256]⟩
abbrev S16x256 : Shape := ⟨2, ![16, 256]⟩
abbrev S4096 : Shape := ⟨1, ![4096]⟩

abbrev nBuf : Space → Nat
  | .hbm => 96
  | .vmem => 8
  | .smem => 0
  | _ => 0

abbrev bufTy : (tb : Table) → Fin (tcTables nBuf tb) → BufTy
  | .hbm, ⟨0, _⟩ => ⟨S16777216, .f32⟩
  | .hbm, ⟨1, _⟩ => ⟨S16777216, .i32⟩
  | .hbm, ⟨2, _⟩ => ⟨S16777216, .i32⟩
  | .hbm, ⟨3, _⟩ => ⟨S65536x256, .f32⟩
  | .hbm, ⟨4, _⟩ => ⟨S65536x256, .i32⟩
  | .hbm, ⟨5, _⟩ => ⟨S65536x256, .i32⟩
  | .hbm, ⟨6, _⟩ => ⟨S2x96x256, .f32⟩
  | .hbm, ⟨7, _⟩ => ⟨S_, .f32⟩
  | .hbm, ⟨8, _⟩ => ⟨S96x256, .f32⟩
  | .hbm, ⟨9, _⟩ => ⟨S16x6x256, .f32⟩
  | .hbm, ⟨10, _⟩ => ⟨S16x1x256, .f32⟩
  | .hbm, ⟨11, _⟩ => ⟨S16x256, .f32⟩
  | .hbm, ⟨12, _⟩ => ⟨S4096, .f32⟩
  | .hbm, ⟨13, _⟩ => ⟨S16x1x256, .f32⟩
  | .hbm, ⟨14, _⟩ => ⟨S16x256, .f32⟩
  | .hbm, ⟨15, _⟩ => ⟨S16x1x256, .f32⟩
  | .hbm, ⟨16, _⟩ => ⟨S16x256, .f32⟩
  | .hbm, ⟨17, _⟩ => ⟨S16x256, .f32⟩
  | .hbm, ⟨18, _⟩ => ⟨S4096, .f32⟩
  | .hbm, ⟨19, _⟩ => ⟨S16x1x256, .f32⟩
  | .hbm, ⟨20, _⟩ => ⟨S16x256, .f32⟩
  | .hbm, ⟨21, _⟩ => ⟨S4096, .f32⟩
  | .hbm, ⟨22, _⟩ => ⟨S16x1x256, .f32⟩
  | .hbm, ⟨23, _⟩ => ⟨S16x256, .f32⟩
  | .hbm, ⟨24, _⟩ => ⟨S16x1x256, .f32⟩
  | .hbm, ⟨25, _⟩ => ⟨S16x256, .f32⟩
  | .hbm, ⟨26, _⟩ => ⟨S16x256, .f32⟩
  | .hbm, ⟨27, _⟩ => ⟨S4096, .f32⟩
  | .hbm, ⟨28, _⟩ => ⟨S4096, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S4096, .f32⟩
  | .hbm, ⟨34, _⟩ => ⟨S_, .f32⟩
  | .hbm, ⟨35, _⟩ => ⟨S4096, .f32⟩
  | .hbm, ⟨36, _⟩ => ⟨S4096, .i1⟩
  | .hbm, ⟨37, _⟩ => ⟨S4096, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S4096, .f32⟩
  | .hbm, ⟨47, _⟩ => ⟨S4096, .f32⟩
  | .hbm, ⟨48, _⟩ => ⟨S4096, .f32⟩
  | .hbm, ⟨49, _⟩ => ⟨S4096, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S4096, .f32⟩
  | .hbm, ⟨59, _⟩ => ⟨S4096, .f32⟩
  | .hbm, ⟨60, _⟩ => ⟨S4096, .f32⟩
  | .hbm, ⟨61, _⟩ => ⟨S_, .f32⟩
  | .hbm, ⟨62, _⟩ => ⟨S4096, .f32⟩
  | .hbm, ⟨63, _⟩ => ⟨S4096, .i1⟩
  | .hbm, ⟨64, _⟩ => ⟨S4096, .f32⟩
  | .hbm, ⟨65, _⟩ => ⟨S_, .f32⟩
  | .hbm, ⟨66, _⟩ => ⟨S_, .f32⟩
  | .hbm, ⟨67, _⟩ => ⟨S4096, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S4096, .f32⟩
  | .hbm, ⟨74, _⟩ => ⟨S4096, .f32⟩
  | .hbm, ⟨75, _⟩ => ⟨S4096, .f32⟩
  | .hbm, ⟨76, _⟩ => ⟨S4096, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .i1⟩
  | .hbm, ⟨86, _⟩ => ⟨S_, .f32⟩
  | .hbm, ⟨87, _⟩ => ⟨S_, .i1⟩
  | .hbm, ⟨88, _⟩ => ⟨S_, .i1⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .local _ .vmem, ⟨0, _⟩ => ⟨S128x256, .f32⟩
  | .local _ .vmem, ⟨1, _⟩ => ⟨S128x256, .f32⟩
  | .local _ .vmem, ⟨2, _⟩ => ⟨S128x256, .i32⟩
  | .local _ .vmem, ⟨3, _⟩ => ⟨S128x256, .i32⟩
  | .local _ .vmem, ⟨4, _⟩ => ⟨S128x256, .i32⟩
  | .local _ .vmem, ⟨5, _⟩ => ⟨S128x256, .i32⟩
  | .local _ .vmem, ⟨6, _⟩ => ⟨S1x96x256, .f32⟩
  | .local _ .vmem, ⟨7, _⟩ => ⟨S1x96x256, .f32⟩
  | _, _ => ⟨S16777216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_cst_0 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_cst_1 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_cst_2 : Ref sig .tc := ⟨.hbm, 38, rfl⟩
abbrev main_v32 : Ref sig .tc := ⟨.hbm, 39, rfl⟩
abbrev main_v33 : Ref sig .tc := ⟨.hbm, 40, rfl⟩
abbrev main_cst_3 : Ref sig .tc := ⟨.hbm, 41, rfl⟩
abbrev main_v34 : Ref sig .tc := ⟨.hbm, 42, rfl⟩
abbrev main_cst_4 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst_5 : Ref sig .tc := ⟨.hbm, 50, rfl⟩
abbrev main_v41 : Ref sig .tc := ⟨.hbm, 51, rfl⟩
abbrev main_cst_6 : Ref sig .tc := ⟨.hbm, 52, rfl⟩
abbrev main_v42 : Ref sig .tc := ⟨.hbm, 53, rfl⟩
abbrev main_cst_7 : Ref sig .tc := ⟨.hbm, 54, rfl⟩
abbrev main_v43 : Ref sig .tc := ⟨.hbm, 55, rfl⟩
abbrev main_v44 : Ref sig .tc := ⟨.hbm, 56, rfl⟩
abbrev main_cst_8 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_9 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_10 : Ref sig .tc := ⟨.hbm, 65, rfl⟩
abbrev main_v51 : Ref sig .tc := ⟨.hbm, 66, rfl⟩
abbrev main_v52 : Ref sig .tc := ⟨.hbm, 67, rfl⟩
abbrev main_cst_11 : Ref sig .tc := ⟨.hbm, 68, rfl⟩
abbrev main_v53 : Ref sig .tc := ⟨.hbm, 69, rfl⟩
abbrev main_cst_12 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_13 : Ref sig .tc := ⟨.hbm, 77, rfl⟩
abbrev main_v60 : Ref sig .tc := ⟨.hbm, 78, rfl⟩
abbrev main_cst_14 : Ref sig .tc := ⟨.hbm, 79, rfl⟩
abbrev main_v61 : Ref sig .tc := ⟨.hbm, 80, rfl⟩
abbrev main_cst_15 : Ref sig .tc := ⟨.hbm, 81, rfl⟩
abbrev main_v62 : Ref sig .tc := ⟨.hbm, 82, rfl⟩
abbrev main_v63 : Ref sig .tc := ⟨.hbm, 83, rfl⟩
abbrev main_cst_16 : Ref sig .tc := ⟨.hbm, 84, rfl⟩
abbrev main_v64 : Ref sig .tc := ⟨.hbm, 85, rfl⟩
abbrev main_cst_17 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_cst_18 : Ref sig .tc := ⟨.hbm, 90, rfl⟩
abbrev main_v68 : Ref sig .tc := ⟨.hbm, 91, rfl⟩
abbrev main_cst_19 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 256], ![false, false]⟩

def cc0_transform_0 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x96x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S16777216_S65536x256 : S16777216.ShapeCasts S65536x256
  inb_S1x96x256_S1x96x256_0_0_0 : ∀ a, (![0, 0, 0] : Fin 3 → Nat) a + S1x96x256.size a ≤ S1x96x256.size a
  h_S1x96x256 : 0 < S1x96x256.numel
  shapeCasts_S1x96x256_S96x256 : S1x96x256.ShapeCasts S96x256
  shapeCasts_S96x256_S1x96x256 : S96x256.ShapeCasts S1x96x256
  inb_S128x256_S128x256_0_0 : ∀ a, (![0, 0] : Fin 2 → Nat) a + S128x256.size a ≤ S128x256.size a
  h_S128x256 : 0 < S128x256.numel
  shapeCasts_S128x256_S128x256 : S128x256.ShapeCasts S128x256
  shapeCasts_S128x256_S32768 : S128x256.ShapeCasts S32768
  natLt_1_32 : 1 < 32
  bitsLt_bf16_f32 : FTy.bits .bf16 < FTy.bits .f32
  shapeCasts_S32768_S1x32768 : S32768.ShapeCasts S1x32768
  concatenates_S1x32768_S1x32768_S1x32768_S1x32768_S1x32768_S1x32768_S6x32768_d0 : Shape.Concatenates [S1x32768, S1x32768, S1x32768, S1x32768, S1x32768, S1x32768] S6x32768 0
  iota_S16x1_d0_w32 : S16x1.Iotas .tc 32 [0]
  broadcasts_S1x32768_S16x32768 : S1x32768.Broadcasts S16x32768
  broadcasts_S16x1_S16x32768 : S16x1.Broadcasts S16x32768
  iota_S1x256_d1_w32 : S1x256.Iotas .tc 32 [1]
  shapeCasts_S32768_S32768x1 : S32768.ShapeCasts S32768x1
  broadcasts_S32768x1_S32768x256 : S32768x1.Broadcasts S32768x256
  broadcasts_S1x256_S32768x256 : S1x256.Broadcasts S32768x256
  shapeCasts_S6x32768_S1x6x32768 : S6x32768.ShapeCasts S1x6x32768
  shapeCasts_S16x32768_S16x1x32768 : S16x32768.ShapeCasts S16x1x32768
  broadcasts_S1x6x32768_S16x6x32768 : S1x6x32768.Broadcasts S16x6x32768
  broadcasts_S16x1x32768_S16x6x32768 : S16x1x32768.Broadcasts S16x6x32768
  shapeCasts_S16x6x32768_S96x32768 : S16x6x32768.ShapeCasts S96x32768
  reducesTo_S2x96x256_S96x256_d0 : S2x96x256.ReducesTo [0] S96x256
  h_S_ : 0 < S_.numel
  shapeCasts_S96x256_S16x6x256 : S96x256.ShapeCasts S16x6x256
  slices_S16x6x256_S16x1x256_0_0_0 : S16x6x256.Slices ![0, 0, 0] S16x1x256
  shapeCasts_S16x1x256_S16x256 : S16x1x256.ShapeCasts S16x256
  shapeCasts_S16x256_S4096 : S16x256.ShapeCasts S4096
  slices_S16x6x256_S16x1x256_0_1_0 : S16x6x256.Slices ![0, 1, 0] S16x1x256
  slices_S16x6x256_S16x1x256_0_2_0 : S16x6x256.Slices ![0, 2, 0] S16x1x256
  slices_S16x6x256_S16x1x256_0_3_0 : S16x6x256.Slices ![0, 3, 0] S16x1x256
  slices_S16x6x256_S16x1x256_0_4_0 : S16x6x256.Slices ![0, 4, 0] S16x1x256
  slices_S16x6x256_S16x1x256_0_5_0 : S16x6x256.Slices ![0, 5, 0] S16x1x256
  bcast_S_S4096 : S_.BroadcastsInDim S4096 (![] : Fin 0 → Fin S4096.rank)
  reducesTo_S4096_S_d0 : S4096.ReducesTo [0] S_
  dot_S96x32768_S32768x256_S96x256_1_0_0_1_n_n_wf : DotDims.WF S96x32768 S32768x256 S96x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x256.size a ≤ S65536x256.size a
  hwx0_0 : ∀ i : grid0.Coords, EltTy.bits .f32 = 32 ∨ (Rect.block (s := S65536x256) S128x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S65536x256.size a
  hwx0_1 : ∀ i : grid0.Coords, EltTy.bits .i32 = 32 ∨ (Rect.block (s := S65536x256) S128x256.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S65536x256.size a
  hwx0_2 : ∀ i : grid0.Coords, EltTy.bits .i32 = 32 ∨ (Rect.block (s := S65536x256) S128x256.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x96x256.size a ≤ S2x96x256.size a
  hwx0_3 : ∀ i : grid0.Coords, EltTy.bits .f32 = 32 ∨ (Rect.block (s := S2x96x256) S1x96x256.size (cc0_transform_3 i) (hinb0_3 i)).WholeWords (EltTy.packing .f32)

variable [Facts₀]

def dot_S96x32768_S32768x256_S96x256_1_0_0_1_n_n : DotDims S96x32768 S32768x256 S96x256 where
  lhsContracting := [1]
  rhsContracting := [0]
  lhsNonContracting := [0]
  rhsNonContracting := [1]
  lhsBatch := []
  rhsBatch := []
  wf := dot_S96x32768_S32768x256_S96x256_1_0_0_1_n_n_wf

abbrev win0_0 : Pipeline.Window sig grid0 :=
  Pipeline.Window.ofSpec (Memref.whole main_v0) S128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S128x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x96x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16777216 : Shape := ⟨1, ![16777216]⟩
abbrev S_ : Shape := ⟨0, ![]⟩
abbrev S4096 : Shape := ⟨1, ![4096]⟩
abbrev S16777216x1 : Shape := ⟨2, ![16777216, 1]⟩

abbrev nBuf : Space → Nat
  | .hbm => 95
  | .vmem => 0
  | .smem => 0
  | _ => 0

abbrev bufTy : (tb : Table) → Fin (tcTables nBuf tb) → BufTy
  | .hbm, ⟨0, _⟩ => ⟨S16777216, .f32⟩
  | .hbm, ⟨1, _⟩ => ⟨S16777216, .i32⟩
  | .hbm, ⟨2, _⟩ => ⟨S16777216, .i32⟩
  | .hbm, ⟨3, _⟩ => ⟨S_, .i32⟩
  | .hbm, ⟨4, _⟩ => ⟨S16777216, .i32⟩
  | .hbm, ⟨5, _⟩ => ⟨S16777216, .i1⟩
  | .hbm, ⟨6, _⟩ => ⟨S16777216, .f32⟩
  | .hbm, ⟨7, _⟩ => ⟨S_, .f32⟩
  | .hbm, ⟨8, _⟩ => ⟨S4096, .f32⟩
  | .hbm, ⟨9, _⟩ => ⟨S16777216x1, .i32⟩
  | .hbm, ⟨10, _⟩ => ⟨S4096, .f32⟩
  | .hbm, ⟨11, _⟩ => ⟨S16777216, .f32⟩
  | .hbm, ⟨12, _⟩ => ⟨S_, .f32⟩
  | .hbm, ⟨13, _⟩ => ⟨S4096, .f32⟩
  | .hbm, ⟨14, _⟩ => ⟨S16777216x1, .i32⟩
  | .hbm, ⟨15, _⟩ => ⟨S4096, .f32⟩
  | .hbm, ⟨16, _⟩ => ⟨S_, .f32⟩
  | .hbm, ⟨17, _⟩ => ⟨S4096, .f32⟩
  | .hbm, ⟨18, _⟩ => ⟨S4096, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .i1⟩
  | .hbm, ⟨23, _⟩ => ⟨S4096, .f32⟩
  | .hbm, ⟨24, _⟩ => ⟨S_, .f32⟩
  | .hbm, ⟨25, _⟩ => ⟨S_, .f32⟩
  | .hbm, ⟨26, _⟩ => ⟨S4096, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S4096, .f32⟩
  | .hbm, ⟨33, _⟩ => ⟨S4096, .f32⟩
  | .hbm, ⟨34, _⟩ => ⟨S4096, .f32⟩
  | .hbm, ⟨35, _⟩ => ⟨S4096, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .i32⟩
  | .hbm, ⟨44, _⟩ => ⟨S16777216, .i32⟩
  | .hbm, ⟨45, _⟩ => ⟨S16777216, .i1⟩
  | .hbm, ⟨46, _⟩ => ⟨S16777216, .f32⟩
  | .hbm, ⟨47, _⟩ => ⟨S_, .f32⟩
  | .hbm, ⟨48, _⟩ => ⟨S4096, .f32⟩
  | .hbm, ⟨49, _⟩ => ⟨S16777216x1, .i32⟩
  | .hbm, ⟨50, _⟩ => ⟨S4096, .f32⟩
  | .hbm, ⟨51, _⟩ => ⟨S16777216, .f32⟩
  | .hbm, ⟨52, _⟩ => ⟨S_, .f32⟩
  | .hbm, ⟨53, _⟩ => ⟨S4096, .f32⟩
  | .hbm, ⟨54, _⟩ => ⟨S16777216x1, .i32⟩
  | .hbm, ⟨55, _⟩ => ⟨S4096, .f32⟩
  | .hbm, ⟨56, _⟩ => ⟨S_, .f32⟩
  | .hbm, ⟨57, _⟩ => ⟨S4096, .f32⟩
  | .hbm, ⟨58, _⟩ => ⟨S4096, .f32⟩
  | .hbm, ⟨59, _⟩ => ⟨S4096, .f32⟩
  | .hbm, ⟨60, _⟩ => ⟨S_, .f32⟩
  | .hbm, ⟨61, _⟩ => ⟨S4096, .f32⟩
  | .hbm, ⟨62, _⟩ => ⟨S4096, .i1⟩
  | .hbm, ⟨63, _⟩ => ⟨S4096, .f32⟩
  | .hbm, ⟨64, _⟩ => ⟨S_, .f32⟩
  | .hbm, ⟨65, _⟩ => ⟨S_, .f32⟩
  | .hbm, ⟨66, _⟩ => ⟨S4096, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S4096, .f32⟩
  | .hbm, ⟨73, _⟩ => ⟨S4096, .f32⟩
  | .hbm, ⟨74, _⟩ => ⟨S4096, .f32⟩
  | .hbm, ⟨75, _⟩ => ⟨S4096, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .i1⟩
  | .hbm, ⟨85, _⟩ => ⟨S_, .f32⟩
  | .hbm, ⟨86, _⟩ => ⟨S_, .i1⟩
  | .hbm, ⟨87, _⟩ => ⟨S_, .i1⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | _, _ => ⟨S16777216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩
abbrev main_c_9 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_10 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_11 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_12 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_13 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_14 : Ref sig .tc := ⟨.hbm, 64, rfl⟩
abbrev main_v45 : Ref sig .tc := ⟨.hbm, 65, rfl⟩
abbrev main_v46 : Ref sig .tc := ⟨.hbm, 66, rfl⟩
abbrev main_cst_15 : Ref sig .tc := ⟨.hbm, 67, rfl⟩
abbrev main_v47 : Ref sig .tc := ⟨.hbm, 68, rfl⟩
abbrev main_cst_16 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_17 : Ref sig .tc := ⟨.hbm, 76, rfl⟩
abbrev main_v54 : Ref sig .tc := ⟨.hbm, 77, rfl⟩
abbrev main_cst_18 : Ref sig .tc := ⟨.hbm, 78, rfl⟩
abbrev main_v55 : Ref sig .tc := ⟨.hbm, 79, rfl⟩
abbrev main_cst_19 : Ref sig .tc := ⟨.hbm, 80, rfl⟩
abbrev main_v56 : Ref sig .tc := ⟨.hbm, 81, rfl⟩
abbrev main_v57 : Ref sig .tc := ⟨.hbm, 82, rfl⟩
abbrev main_cst_20 : Ref sig .tc := ⟨.hbm, 83, rfl⟩
abbrev main_v58 : Ref sig .tc := ⟨.hbm, 84, rfl⟩
abbrev main_cst_21 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_22 : Ref sig .tc := ⟨.hbm, 89, rfl⟩
abbrev main_v62 : Ref sig .tc := ⟨.hbm, 90, rfl⟩
abbrev main_cst_23 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩

abbrev nD : Nat := 1
abbrev τ : Topo := Topo.v7x

variable {F : FTy → Type} [FloatOps F]

class Facts₀ : Prop where
  bcast_S_S16777216 : S_.BroadcastsInDim S16777216 (![] : Fin 0 → Fin S16777216.rank)
  bcast_S_S4096 : S_.BroadcastsInDim S4096 (![] : Fin 0 → Fin S4096.rank)
  bcast_S16777216_S16777216x1_0 : S16777216.BroadcastsInDim S16777216x1 (![0] : Fin 1 → Fin S16777216x1.rank)
  reducesTo_S4096_S_d0 : S4096.ReducesTo [0] S_
  h_S_ : 0 < S_.numel
  scatter_S4096_S16777216x1_S16777216_n_0_0_1_wf : ScatterDims.WF S4096 S16777216x1 S16777216 [] [0] [0] 1

variable [Facts₀]

def scatter_S4096_S16777216x1_S16777216_n_0_0_1 : ScatterDims S4096 S16777216x1 S16777216 where
  updateWindowDims := []
  insertedWindowDims := [0]
  scatterDimsToOperandDims := [0]
  indexVectorDim := 1
  wf := scatter_S4096_S16777216x1_S16777216_n_0_0_1_wf

class Facts : Prop extends Facts₀ where

variable [Facts]
-- ==== Proof.KRuns.lean ====
/-
  The program around its one region: the three reshapes before it, the region, the host operations after it.

  What each core's buffers hold when the region is entered (`V`: the launch contents after the reshapes), each
  window's block at a grid point read off those contents (`iblk`), that an input window's staging buffer holds its
  block at every point, that the operations after the region touch only unscoped buffers, allocate nothing and write
  no array the region stages, that no host operation writes an argument array, and how the frame claim follows from a
  run of the region with the later operations. The body's one branch condition — the second grid coordinate is
  zero — holds exactly at the points divisible by 256.
-/
import proofs.«424844_j37847251812699_3_alg».proof.Proof.Gen.Kernel.Launch
import proofs.«424844_j37847251812699_3_alg».proof.Proof.Gen.Kernel.Skeleton
import proofs.«424844_j37847251812699_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- Core `c`'s buffer contents when the region is entered: the launch contents after the three reshapes. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The host operations after the region, stretch by stretch. -/
abbrev tailOps : List (List (HloOp τ sig (Elt F))) := [hostOps1, hostOps1_1, hostOps1_2, hostOps1_3]

theorem hostOps0_fresh : (hostOps0 : List (HloOp τ sig (Elt F))).Forall fun op => op.fresh = ∅ := by
  simp only [List.Forall]; repeat' constructor
set_option maxHeartbeats 4000000 in
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor

/-- The program reduces to the region continued by the later operations, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- Every later operation touches unscoped TensorCore buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)

/-- None allocates. -/
theorem sfx_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop

/-- An operation writes none of the four arrays the region stages. -/
abbrev KeepsArrays (op : HloOp τ sig (Elt F)) : Prop := ∀ w, Proc.devRef .tc (Pipeline.arrRef spec0 w) ∉ op.writes

set_option maxHeartbeats 8000000 in
theorem hostOps1_keeps : (hostOps1 : List (HloOp τ sig (Elt F))).Forall KeepsArrays := by
  simp only [hostOps1, List.Forall, KeepsArrays, StableHlo.nullary_writes, StableHlo.unary_writes, StableHlo.binary_writes, StableHlo.ternary_writes, StableHlo.reshape_writes, Finset.mem_singleton]
  repeat' apply And.intro
  all_goals intro w; fin_cases w <;> exact StableHlo.devRef_ne_of_ne (by decide)
theorem hostOps1_1_keeps : (hostOps1_1 : List (HloOp τ sig (Elt F))).Forall KeepsArrays := by
  simp only [hostOps1_1, List.Forall, KeepsArrays, StableHlo.TRef.ternary, StableHlo.ternary_writes, Finset.mem_singleton]
  intro w; fin_cases w <;> exact StableHlo.devRef_ne_of_ne (by decide)
theorem hostOps1_2_keeps : (hostOps1_2 : List (HloOp τ sig (Elt F))).Forall KeepsArrays := by
  simp only [hostOps1_2, List.Forall, KeepsArrays, StableHlo.TRef.ternary, StableHlo.ternary_writes, Finset.mem_singleton]
  intro w; fin_cases w <;> exact StableHlo.devRef_ne_of_ne (by decide)
theorem hostOps1_3_keeps : (hostOps1_3 : List (HloOp τ sig (Elt F))).Forall KeepsArrays := by
  simp only [hostOps1_3, List.Forall, KeepsArrays, StableHlo.TRef.ternary, StableHlo.ternary_writes, Finset.mem_singleton]
  intro w; fin_cases w <;> exact StableHlo.devRef_ne_of_ne (by decide)

/-- None writes an array the region stages. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [tailOps, List.mem_cons, List.mem_nil_iff, or_false] at hops
  rcases hops with rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop

/-! ## The argument arrays -/

/-- No reshape before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

set_option maxHeartbeats 8000000 in
/-- No operation after the region writes argument 0: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) tailOps c main_arg0 = m ((c : Thread nD τ).loc main_arg0) := by
  unfold Pipeline.afterTail₀
  rw [StableHlo.after_of_forall_not_mem (b := Proc.devRef .tc main_arg0) _ _ (List.forall_iff_forall_mem.mp (by
      simp only [tailOps, hostOps1, hostOps1_1, hostOps1_2, hostOps1_3, StableHlo.TRef.ternary, List.flatten_cons, List.flatten_nil, List.append_nil, List.cons_append,
        List.nil_append, List.Forall, StableHlo.nullary_writes, StableHlo.unary_writes, StableHlo.binary_writes, StableHlo.ternary_writes, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No reshape before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

set_option maxHeartbeats 8000000 in
/-- No operation after the region writes argument 1: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ (List.forall_iff_forall_mem.mp (by
      simp only [tailOps, hostOps1, hostOps1_1, hostOps1_2, hostOps1_3, StableHlo.TRef.ternary, List.flatten_cons, List.flatten_nil, List.append_nil, List.cons_append,
        List.nil_append, List.Forall, StableHlo.nullary_writes, StableHlo.unary_writes, StableHlo.binary_writes, StableHlo.ternary_writes, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No reshape before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

set_option maxHeartbeats 8000000 in
/-- No operation after the region writes argument 2: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) := by
  unfold Pipeline.afterTail₀
  rw [StableHlo.after_of_forall_not_mem (b := Proc.devRef .tc main_arg2) _ _ (List.forall_iff_forall_mem.mp (by
      simp only [tailOps, hostOps1, hostOps1_1, hostOps1_2, hostOps1_3, StableHlo.TRef.ternary, List.flatten_cons, List.flatten_nil, List.append_nil, List.cons_append,
        List.nil_append, List.Forall, StableHlo.nullary_writes, StableHlo.unary_writes, StableHlo.binary_writes, StableHlo.ternary_writes, StableHlo.reshape_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, for any proof data whose array is `V`'s and whose
    body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, for any proof data whose array is `V`'s and whose
    body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point, for any proof data whose array is `V`'s and whose
    body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run of the region with the later operations -/

/-- A run whose post has every staged array at what the proof data compute and every other unscoped buffer as the later
    operations leave it ends with the three argument arrays unchanged: no window stages them and no operation writes them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c)⟩) h

/-! ## The body's branch condition -/

/-- The body's one branch: the second grid coordinate is zero. -/
abbrev cond0_0 (i : grid0.Coords) : Prop := (Scalar.cmpi .ne (Scalar.extui (Scalar.cmpi .eq (BitVec.ofNat 32 (i 1).val) 0#32)) 0#32) = 1#1
/-- It holds exactly at the points divisible by 256: the first point of each core's row. -/
theorem hcond0_0 : ∀ t : Fin cfg0.N, cond0_0 (grid0.coords t) ↔ t.val % 256 = 0 :=
  (by decide +kernel : ∀ t : Fin grid0.N, cond0_0 (grid0.coords t) ↔ t.val % 256 = 0)

/-! ## The staging memrefs at a point -/

/-- One staging buffer of the output window, through which its contents are stated. -/
abbrev VO0_3 : View sig .tc .vmem S1x96x256 .f32 := (Memref.whole cc0_stg3_0 : Memref sig .tc .vmem S1x96x256 .f32).view
abbrev ms0_0 (t : Fin cfg0.N) : Memref sig .tc .vmem S128x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x256 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x256 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x96x256 .f32 := win0_3.stage (cfg0.slots t 3)
abbrev hs0_3 (t : Fin cfg0.N) : (ms0_3 t).IsWhole := hstage0_3 ((cfg0.slots t 3).cast nbuf0_3)

end Cert.Kernel.Hand

end
-- ==== Proof.KRunA.lean ====
/-
  The body at the first point of a core's row (the second grid coordinate is zero).

  On whole staging buffers — the three inputs' at their blocks, the output's at anything — the body stores zeros over the
  output buffer, loads the three input blocks, and stores the accumulated table over the output buffer again; the inputs'
  buffers are left as they were. The pieces the output buffer ends with (last store first) are found by running the body.
-/
import proofs.«424844_j37847251812699_3_alg».proof.Proof.KRuns

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the output's staging buffer ends with when the branch is taken, with the body's run to any continuation
    that holds the inputs' buffers as they were and the output's with those pieces written. -/
noncomputable def kernelRun0_A (c : Dev nD) (i : grid0.Coords) (arg2 : Memref sig .tc .vmem S128x256 .f32) (harg2 : arg2.IsWhole) (arg3 : Memref sig .tc .vmem S128x256 .i32) (harg3 : arg3.IsWhole) (arg4 : Memref sig .tc .vmem S128x256 .i32) (harg4 : arg4.IsWhole) (arg5 : Memref sig .tc .vmem S1x96x256 .f32) (harg5 : arg5.IsWhole) (hc0 : cond0_0 i)
    (x0 : Vec F S128x256 .f32) (x1 : Vec F S128x256 .i32) (x2 : Vec F S128x256 .i32) :
    { L3 : List (View.Piece (Elt F) S1x96x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc0__hist_kernel i arg2 harg2 arg3 harg3 arg4 harg4 arg5 harg5) K } := by
  refine ⟨?_, fun E K => ?run⟩
  case run =>
    simp only [cc0__hist_kernel_eq_skeleton]; unfold cc0__hist_kernel_skel
    simp only [k0_part1_eq_skeleton]
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.Kernel.Hand

end
-- ==== Proof.KRunB.lean ====
/-
  The body at a later point of a core's row (the second grid coordinate is not zero).

  On whole staging buffers — the three inputs' at their blocks, the output's at its running contents — the body loads the
  three input blocks, loads the output buffer, and stores the accumulated table over it; the inputs' buffers are left as
  they were. The pieces the output buffer ends with are found by running the body.
-/
import proofs.«424844_j37847251812699_3_alg».proof.Proof.KRunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the output's staging buffer ends with when the branch is not taken, with the body's run to any continuation
    that holds the inputs' buffers as they were and the output's with those pieces written. -/
noncomputable def kernelRun0_B (c : Dev nD) (i : grid0.Coords) (arg2 : Memref sig .tc .vmem S128x256 .f32) (harg2 : arg2.IsWhole) (arg3 : Memref sig .tc .vmem S128x256 .i32) (harg3 : arg3.IsWhole) (arg4 : Memref sig .tc .vmem S128x256 .i32) (harg4 : arg4.IsWhole) (arg5 : Memref sig .tc .vmem S1x96x256 .f32) (harg5 : arg5.IsWhole) (hc0 : ¬cond0_0 i)
    (x0 : Vec F S128x256 .f32) (x1 : Vec F S128x256 .i32) (x2 : Vec F S128x256 .i32) (xo3 : Vec F S1x96x256 .f32) :
    { L3 : List (View.Piece (Elt F) S1x96x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo3
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc0__hist_kernel i arg2 harg2 arg3 harg3 arg4 harg4 arg5 harg5) K } := by
  refine ⟨?_, fun E K => ?run⟩
  case run =>
    simp only [cc0__hist_kernel_eq_skeleton]; unfold cc0__hist_kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.Kernel.Hand

end
-- ==== Proof.KFrame.lean ====
/-
  The region's run and the frame.

  What the output's staging buffer holds after the body at each point, by recursion on the point: at the first point of
  a core's row the taken branch's pieces read back, at a later point the other branch's over what the point before left
  (the buffer is written back only at the row's last point, so between two points of a row it keeps its contents). With
  that as proof data — the inputs' buffers at their blocks — the body meets its obligation at every point, the region
  with the host operations around it runs, and the argument arrays end unchanged.
-/
import proofs.«424844_j37847251812699_3_alg».proof.Proof.KRunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The taken branch's pieces tile the output block, so they cover it. -/
theorem cover0_A_3 (c : Dev nD) (i : grid0.Coords) (arg2 : Memref sig .tc .vmem S128x256 .f32) (harg2 : arg2.IsWhole) (arg3 : Memref sig .tc .vmem S128x256 .i32) (harg3 : arg3.IsWhole) (arg4 : Memref sig .tc .vmem S128x256 .i32) (harg4 : arg4.IsWhole) (arg5 : Memref sig .tc .vmem S1x96x256 .f32) (harg5 : arg5.IsWhole) (hc0 : cond0_0 i)
    (x0 : Vec F S128x256 .f32) (x1 : Vec F S128x256 .i32) (x2 : Vec F S128x256 .i32) (y : S1x96x256.Idx) :
    ∃ pc ∈ (kernelRun0_A c i arg2 harg2 arg3 harg3 arg4 harg4 arg5 harg5 hc0 x0 x1 x2).1, y ∈ pc.1.set :=
  View.cover_of_tiledL (kernelRun0_A c i arg2 harg2 arg3 harg3 arg4 harg4 arg5 harg5 hc0 x0 x1 x2).1 S1x96x256.size (by sl_kernel_rfl) y

/-- What the taken branch leaves in the output's staging buffer: its pieces read back. -/
def out0_A_3 (c : Dev nD) (i : grid0.Coords) (arg2 : Memref sig .tc .vmem S128x256 .f32) (harg2 : arg2.IsWhole) (arg3 : Memref sig .tc .vmem S128x256 .i32) (harg3 : arg3.IsWhole) (arg4 : Memref sig .tc .vmem S128x256 .i32) (harg4 : arg4.IsWhole) (arg5 : Memref sig .tc .vmem S1x96x256 .f32) (harg5 : arg5.IsWhole) (hc0 : cond0_0 i)
    (x0 : Vec F S128x256 .f32) (x1 : Vec F S128x256 .i32) (x2 : Vec F S128x256 .i32) : Vec F S1x96x256 .f32 :=
  VO0_3.read (Elt F) (VO0_3.writes (Elt F) VO0_3.junk (kernelRun0_A c i arg2 harg2 arg3 harg3 arg4 harg4 arg5 harg5 hc0 x0 x1 x2).1)

/-- The other branch's pieces tile the output block, so they cover it. -/
theorem cover0_B_3 (c : Dev nD) (i : grid0.Coords) (arg2 : Memref sig .tc .vmem S128x256 .f32) (harg2 : arg2.IsWhole) (arg3 : Memref sig .tc .vmem S128x256 .i32) (harg3 : arg3.IsWhole) (arg4 : Memref sig .tc .vmem S128x256 .i32) (harg4 : arg4.IsWhole) (arg5 : Memref sig .tc .vmem S1x96x256 .f32) (harg5 : arg5.IsWhole) (hc0 : ¬cond0_0 i)
    (x0 : Vec F S128x256 .f32) (x1 : Vec F S128x256 .i32) (x2 : Vec F S128x256 .i32) (xo3 : Vec F S1x96x256 .f32) (y : S1x96x256.Idx) :
    ∃ pc ∈ (kernelRun0_B c i arg2 harg2 arg3 harg3 arg4 harg4 arg5 harg5 hc0 x0 x1 x2 xo3).1, y ∈ pc.1.set :=
  View.cover_of_tiledL (kernelRun0_B c i arg2 harg2 arg3 harg3 arg4 harg4 arg5 harg5 hc0 x0 x1 x2 xo3).1 S1x96x256.size (by sl_kernel_rfl) y

/-- What the other branch leaves in the output's staging buffer: its pieces read back. -/
def out0_B_3 (c : Dev nD) (i : grid0.Coords) (arg2 : Memref sig .tc .vmem S128x256 .f32) (harg2 : arg2.IsWhole) (arg3 : Memref sig .tc .vmem S128x256 .i32) (harg3 : arg3.IsWhole) (arg4 : Memref sig .tc .vmem S128x256 .i32) (harg4 : arg4.IsWhole) (arg5 : Memref sig .tc .vmem S1x96x256 .f32) (harg5 : arg5.IsWhole) (hc0 : ¬cond0_0 i)
    (x0 : Vec F S128x256 .f32) (x1 : Vec F S128x256 .i32) (x2 : Vec F S128x256 .i32) (xo3 : Vec F S1x96x256 .f32) : Vec F S1x96x256 .f32 :=
  VO0_3.read (Elt F) (VO0_3.writes (Elt F) VO0_3.junk (kernelRun0_B c i arg2 harg2 arg3 harg3 arg4 harg4 arg5 harg5 hc0 x0 x1 x2 xo3).1)

/-! ## What the output's staging buffer holds after each point -/

/-- The accumulation: after point `n` the buffer holds what the point's branch leaves, a later point of a row over what
    the point before left. -/
def outsAt0 (c : Dev nD) : (n : ℕ) → n < cfg0.N → Vec F S1x96x256 .f32
  | 0, hn => out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (iblk m c 0 ⟨0, hn⟩) (iblk m c 1 ⟨0, hn⟩) (iblk m c 2 ⟨0, hn⟩)
  | n + 1, hn =>
    if h0 : (n + 1) % 256 = 0 then
      out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (iblk m c 0 ⟨n + 1, hn⟩) (iblk m c 1 ⟨n + 1, hn⟩) (iblk m c 2 ⟨n + 1, hn⟩)
    else
      out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn))

/-- At the first point of a row: the taken branch's contents. -/
theorem outsAt0_A (c : Dev nD) (t : Fin cfg0.N) (h0 : t.val % 256 = 0) :
    outsAt0 m c t.val t.isLt = out0_A_3 c (grid0.coords t) (ms0_0 t) (hs0_0 t) (ms0_1 t) (hs0_1 t) (ms0_2 t) (hs0_2 t) (ms0_3 t) (hs0_3 t) ((hcond0_0 t).mpr h0) (iblk m c 0 t) (iblk m c 1 t) (iblk m c 2 t) := by
  obtain ⟨n, hn⟩ := t
  cases n with
  | zero => exact rfl
  | succ n => exact (dif_pos h0).trans rfl

/-- At a later point of a row: the other branch's contents, over what the point before left. -/
theorem outsAt0_B (c : Dev nD) (t : Fin cfg0.N) (h0 : ¬t.val % 256 = 0) :
    outsAt0 m c t.val t.isLt = out0_B_3 c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t) (iblk m c 2 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The proof data -/

/-- The arrays as the region finds them; after the body each input's buffer at its block and the output's at the
    accumulation; the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- At a later point of a row the output's staging buffer holds what the body left at the point before: the buffer is
    written back only at a row's last point, and the point before a later point of a row is not that. -/
theorem before0_3_B (c : Dev nD) (t : Fin cfg0.N) (h0 : ¬t.val % 256 = 0) (d) :
    (dats m 0 c).before 3 t d = (outsAt0 m c (t.val - 1) (Nat.lt_of_le_of_lt (Nat.sub_le _ _) t.isLt)) := by
  have hN : t.val < 512 := lt_of_lt_of_eq t.isLt (show cfg0.N = 512 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 1600000 in
/-- The body at any point: the inputs' buffers hold their blocks; the point is the first of its row or a later one, and in
    the second case the output's buffer holds what the point before left; so the branch's run applies, and the pieces it
    leaves cover the output block. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  have hN : t.val < 512 := lt_of_lt_of_eq t.isLt (show cfg0.N = 512 from N_0)
  by_cases h0 : t.val % 256 = 0
  · rw [outsAt0_A m c t h0]
    unfold out0_A_3
    iintro ⟨HΦ, Ho, ⟨%d0, H0⟩, ⟨%d1, H1⟩, ⟨%d2, H2⟩, ⟨%d3, H3⟩⟩
    iapply ((kernelRun0_A c (grid0.coords t) _ _ _ _ _ _ _ _ ((hcond0_0 t).mpr h0) (iblk m c 0 t) (iblk m c 1 t) (iblk m c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_A_3 c _ _ _ _ _ _ _ _ _ _ _ _ _)
  · rw [outsAt0_B m c t h0]
    simp only [before0_3_B m c t h0]
    unfold out0_B_3
    iintro ⟨HΦ, Ho, ⟨%d0, H0⟩, ⟨%d1, H1⟩, ⟨%d2, H2⟩, ⟨%d3, H3⟩⟩
    iapply ((kernelRun0_B c (grid0.coords t) _ _ _ _ _ _ _ _ (fun h => h0 ((hcond0_0 t).mp h)) (iblk m c 0 t) (iblk m c 1 t) (iblk m c 2 t) _).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_B_3 c _ _ _ _ _ _ _ _ _ _ _ _ _ _)

/-- The body obligation at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, and every final state has each staged array at what the proof
    data compute and every other unscoped buffer as the operations after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame: the program runs and its three argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Hand

end
-- ==== Proof.KIRuns.lean ====
/-
  The program around its one region: the three reshapes before it, the region, the host operations after it.

  What each core's buffers hold when the region is entered (`V`: the launch contents after the reshapes), each
  window's block at a grid point read off those contents (`iblk`), that an input window's staging buffer holds its
  block at every point, that the operations after the region touch only unscoped buffers, allocate nothing and write
  no array the region stages, that no host operation writes an argument array, and how the frame claim follows from a
  run of the region with the later operations. The body's one branch condition — the second grid coordinate is
  zero — holds exactly at the points divisible by 256.
-/
import proofs.«424844_j37847251812699_3_alg».proof.Proof.Gen.KernelIdeal.Launch
import proofs.«424844_j37847251812699_3_alg».proof.Proof.Gen.KernelIdeal.Skeleton
import proofs.«424844_j37847251812699_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- Core `c`'s buffer contents when the region is entered: the launch contents after the three reshapes. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The host operations after the region, stretch by stretch. -/
abbrev tailOps : List (List (HloOp τ sig (Elt F))) := [hostOps1, hostOps1_1, hostOps1_2, hostOps1_3]

theorem hostOps0_fresh : (hostOps0 : List (HloOp τ sig (Elt F))).Forall fun op => op.fresh = ∅ := by
  simp only [List.Forall]; repeat' constructor
set_option maxHeartbeats 4000000 in
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor

/-- The program reduces to the region continued by the later operations, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- Every later operation touches unscoped TensorCore buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)

/-- None allocates. -/
theorem sfx_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop

/-- An operation writes none of the four arrays the region stages. -/
abbrev KeepsArrays (op : HloOp τ sig (Elt F)) : Prop := ∀ w, Proc.devRef .tc (Pipeline.arrRef spec0 w) ∉ op.writes

set_option maxHeartbeats 8000000 in
theorem hostOps1_keeps : (hostOps1 : List (HloOp τ sig (Elt F))).Forall KeepsArrays := by
  simp only [hostOps1, List.Forall, KeepsArrays, StableHlo.nullary_writes, StableHlo.unary_writes, StableHlo.binary_writes, StableHlo.ternary_writes, StableHlo.reshape_writes, Finset.mem_singleton]
  repeat' apply And.intro
  all_goals intro w; fin_cases w <;> exact StableHlo.devRef_ne_of_ne (by decide)
theorem hostOps1_1_keeps : (hostOps1_1 : List (HloOp τ sig (Elt F))).Forall KeepsArrays := by
  simp only [hostOps1_1, List.Forall, KeepsArrays, StableHlo.TRef.ternary, StableHlo.ternary_writes, Finset.mem_singleton]
  intro w; fin_cases w <;> exact StableHlo.devRef_ne_of_ne (by decide)
theorem hostOps1_2_keeps : (hostOps1_2 : List (HloOp τ sig (Elt F))).Forall KeepsArrays := by
  simp only [hostOps1_2, List.Forall, KeepsArrays, StableHlo.TRef.ternary, StableHlo.ternary_writes, Finset.mem_singleton]
  intro w; fin_cases w <;> exact StableHlo.devRef_ne_of_ne (by decide)
theorem hostOps1_3_keeps : (hostOps1_3 : List (HloOp τ sig (Elt F))).Forall KeepsArrays := by
  simp only [hostOps1_3, List.Forall, KeepsArrays, StableHlo.TRef.ternary, StableHlo.ternary_writes, Finset.mem_singleton]
  intro w; fin_cases w <;> exact StableHlo.devRef_ne_of_ne (by decide)

/-- None writes an array the region stages. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [tailOps, List.mem_cons, List.mem_nil_iff, or_false] at hops
  rcases hops with rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop

/-! ## The argument arrays -/

/-- No reshape before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

set_option maxHeartbeats 8000000 in
/-- No operation after the region writes argument 0: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) tailOps c main_arg0 = m ((c : Thread nD τ).loc main_arg0) := by
  unfold Pipeline.afterTail₀
  rw [StableHlo.after_of_forall_not_mem (b := Proc.devRef .tc main_arg0) _ _ (List.forall_iff_forall_mem.mp (by
      simp only [tailOps, hostOps1, hostOps1_1, hostOps1_2, hostOps1_3, StableHlo.TRef.ternary, List.flatten_cons, List.flatten_nil, List.append_nil, List.cons_append,
        List.nil_append, List.Forall, StableHlo.nullary_writes, StableHlo.unary_writes, StableHlo.binary_writes, StableHlo.ternary_writes, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No reshape before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

set_option maxHeartbeats 8000000 in
/-- No operation after the region writes argument 1: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ (List.forall_iff_forall_mem.mp (by
      simp only [tailOps, hostOps1, hostOps1_1, hostOps1_2, hostOps1_3, StableHlo.TRef.ternary, List.flatten_cons, List.flatten_nil, List.append_nil, List.cons_append,
        List.nil_append, List.Forall, StableHlo.nullary_writes, StableHlo.unary_writes, StableHlo.binary_writes, StableHlo.ternary_writes, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No reshape before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

set_option maxHeartbeats 8000000 in
/-- No operation after the region writes argument 2: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) := by
  unfold Pipeline.afterTail₀
  rw [StableHlo.after_of_forall_not_mem (b := Proc.devRef .tc main_arg2) _ _ (List.forall_iff_forall_mem.mp (by
      simp only [tailOps, hostOps1, hostOps1_1, hostOps1_2, hostOps1_3, StableHlo.TRef.ternary, List.flatten_cons, List.flatten_nil, List.append_nil, List.cons_append,
        List.nil_append, List.Forall, StableHlo.nullary_writes, StableHlo.unary_writes, StableHlo.binary_writes, StableHlo.ternary_writes, StableHlo.reshape_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, for any proof data whose array is `V`'s and whose
    body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, for any proof data whose array is `V`'s and whose
    body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point, for any proof data whose array is `V`'s and whose
    body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run of the region with the later operations -/

/-- A run whose post has every staged array at what the proof data compute and every other unscoped buffer as the later
    operations leave it ends with the three argument arrays unchanged: no window stages them and no operation writes them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c)⟩) h

/-! ## The body's branch condition -/

/-- The body's one branch: the second grid coordinate is zero. -/
abbrev cond0_0 (i : grid0.Coords) : Prop := (Scalar.cmpi .ne (Scalar.extui (Scalar.cmpi .eq (BitVec.ofNat 32 (i 1).val) 0#32)) 0#32) = 1#1
/-- It holds exactly at the points divisible by 256: the first point of each core's row. -/
theorem hcond0_0 : ∀ t : Fin cfg0.N, cond0_0 (grid0.coords t) ↔ t.val % 256 = 0 :=
  (by decide +kernel : ∀ t : Fin grid0.N, cond0_0 (grid0.coords t) ↔ t.val % 256 = 0)

/-! ## The staging memrefs at a point -/

/-- One staging buffer of the output window, through which its contents are stated. -/
abbrev VO0_3 : View sig .tc .vmem S1x96x256 .f32 := (Memref.whole cc0_stg3_0 : Memref sig .tc .vmem S1x96x256 .f32).view
abbrev ms0_0 (t : Fin cfg0.N) : Memref sig .tc .vmem S128x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x256 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x256 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x96x256 .f32 := win0_3.stage (cfg0.slots t 3)
abbrev hs0_3 (t : Fin cfg0.N) : (ms0_3 t).IsWhole := hstage0_3 ((cfg0.slots t 3).cast nbuf0_3)

end Cert.KernelIdeal.Hand

end
-- ==== Proof.KIRunA.lean ====
/-
  The body at the first point of a core's row (the second grid coordinate is zero).

  On whole staging buffers — the three inputs' at their blocks, the output's at anything — the body stores zeros over the
  output buffer, loads the three input blocks, and stores the accumulated table over the output buffer again; the inputs'
  buffers are left as they were. The pieces the output buffer ends with (last store first) are found by running the body.
-/
import proofs.«424844_j37847251812699_3_alg».proof.Proof.KIRuns

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the output's staging buffer ends with when the branch is taken, with the body's run to any continuation
    that holds the inputs' buffers as they were and the output's with those pieces written. -/
noncomputable def kernelRun0_A (c : Dev nD) (i : grid0.Coords) (arg2 : Memref sig .tc .vmem S128x256 .f32) (harg2 : arg2.IsWhole) (arg3 : Memref sig .tc .vmem S128x256 .i32) (harg3 : arg3.IsWhole) (arg4 : Memref sig .tc .vmem S128x256 .i32) (harg4 : arg4.IsWhole) (arg5 : Memref sig .tc .vmem S1x96x256 .f32) (harg5 : arg5.IsWhole) (hc0 : cond0_0 i)
    (x0 : Vec F S128x256 .f32) (x1 : Vec F S128x256 .i32) (x2 : Vec F S128x256 .i32) :
    { L3 : List (View.Piece (Elt F) S1x96x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc0__hist_kernel i arg2 harg2 arg3 harg3 arg4 harg4 arg5 harg5) K } := by
  refine ⟨?_, fun E K => ?run⟩
  case run =>
    simp only [cc0__hist_kernel_eq_skeleton]; unfold cc0__hist_kernel_skel
    simp only [k0_part1_eq_skeleton]
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.KernelIdeal.Hand

end
-- ==== Proof.KIRunB.lean ====
/-
  The body at a later point of a core's row (the second grid coordinate is not zero).

  On whole staging buffers — the three inputs' at their blocks, the output's at its running contents — the body loads the
  three input blocks, loads the output buffer, and stores the accumulated table over it; the inputs' buffers are left as
  they were. The pieces the output buffer ends with are found by running the body.
-/
import proofs.«424844_j37847251812699_3_alg».proof.Proof.KIRunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the output's staging buffer ends with when the branch is not taken, with the body's run to any continuation
    that holds the inputs' buffers as they were and the output's with those pieces written. -/
noncomputable def kernelRun0_B (c : Dev nD) (i : grid0.Coords) (arg2 : Memref sig .tc .vmem S128x256 .f32) (harg2 : arg2.IsWhole) (arg3 : Memref sig .tc .vmem S128x256 .i32) (harg3 : arg3.IsWhole) (arg4 : Memref sig .tc .vmem S128x256 .i32) (harg4 : arg4.IsWhole) (arg5 : Memref sig .tc .vmem S1x96x256 .f32) (harg5 : arg5.IsWhole) (hc0 : ¬cond0_0 i)
    (x0 : Vec F S128x256 .f32) (x1 : Vec F S128x256 .i32) (x2 : Vec F S128x256 .i32) (xo3 : Vec F S1x96x256 .f32) :
    { L3 : List (View.Piece (Elt F) S1x96x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo3
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc0__hist_kernel i arg2 harg2 arg3 harg3 arg4 harg4 arg5 harg5) K } := by
  refine ⟨?_, fun E K => ?run⟩
  case run =>
    simp only [cc0__hist_kernel_eq_skeleton]; unfold cc0__hist_kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.KernelIdeal.Hand

end
-- ==== Proof.KIFrame.lean ====
/-
  The region's run and the frame.

  What the output's staging buffer holds after the body at each point, by recursion on the point: at the first point of
  a core's row the taken branch's pieces read back, at a later point the other branch's over what the point before left
  (the buffer is written back only at the row's last point, so between two points of a row it keeps its contents). With
  that as proof data — the inputs' buffers at their blocks — the body meets its obligation at every point, the region
  with the host operations around it runs, and the argument arrays end unchanged.
-/
import proofs.«424844_j37847251812699_3_alg».proof.Proof.KIRunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The taken branch's pieces tile the output block, so they cover it. -/
theorem cover0_A_3 (c : Dev nD) (i : grid0.Coords) (arg2 : Memref sig .tc .vmem S128x256 .f32) (harg2 : arg2.IsWhole) (arg3 : Memref sig .tc .vmem S128x256 .i32) (harg3 : arg3.IsWhole) (arg4 : Memref sig .tc .vmem S128x256 .i32) (harg4 : arg4.IsWhole) (arg5 : Memref sig .tc .vmem S1x96x256 .f32) (harg5 : arg5.IsWhole) (hc0 : cond0_0 i)
    (x0 : Vec F S128x256 .f32) (x1 : Vec F S128x256 .i32) (x2 : Vec F S128x256 .i32) (y : S1x96x256.Idx) :
    ∃ pc ∈ (kernelRun0_A c i arg2 harg2 arg3 harg3 arg4 harg4 arg5 harg5 hc0 x0 x1 x2).1, y ∈ pc.1.set :=
  View.cover_of_tiledL (kernelRun0_A c i arg2 harg2 arg3 harg3 arg4 harg4 arg5 harg5 hc0 x0 x1 x2).1 S1x96x256.size (by sl_kernel_rfl) y

/-- What the taken branch leaves in the output's staging buffer: its pieces read back. -/
def out0_A_3 (c : Dev nD) (i : grid0.Coords) (arg2 : Memref sig .tc .vmem S128x256 .f32) (harg2 : arg2.IsWhole) (arg3 : Memref sig .tc .vmem S128x256 .i32) (harg3 : arg3.IsWhole) (arg4 : Memref sig .tc .vmem S128x256 .i32) (harg4 : arg4.IsWhole) (arg5 : Memref sig .tc .vmem S1x96x256 .f32) (harg5 : arg5.IsWhole) (hc0 : cond0_0 i)
    (x0 : Vec F S128x256 .f32) (x1 : Vec F S128x256 .i32) (x2 : Vec F S128x256 .i32) : Vec F S1x96x256 .f32 :=
  VO0_3.read (Elt F) (VO0_3.writes (Elt F) VO0_3.junk (kernelRun0_A c i arg2 harg2 arg3 harg3 arg4 harg4 arg5 harg5 hc0 x0 x1 x2).1)

/-- The other branch's pieces tile the output block, so they cover it. -/
theorem cover0_B_3 (c : Dev nD) (i : grid0.Coords) (arg2 : Memref sig .tc .vmem S128x256 .f32) (harg2 : arg2.IsWhole) (arg3 : Memref sig .tc .vmem S128x256 .i32) (harg3 : arg3.IsWhole) (arg4 : Memref sig .tc .vmem S128x256 .i32) (harg4 : arg4.IsWhole) (arg5 : Memref sig .tc .vmem S1x96x256 .f32) (harg5 : arg5.IsWhole) (hc0 : ¬cond0_0 i)
    (x0 : Vec F S128x256 .f32) (x1 : Vec F S128x256 .i32) (x2 : Vec F S128x256 .i32) (xo3 : Vec F S1x96x256 .f32) (y : S1x96x256.Idx) :
    ∃ pc ∈ (kernelRun0_B c i arg2 harg2 arg3 harg3 arg4 harg4 arg5 harg5 hc0 x0 x1 x2 xo3).1, y ∈ pc.1.set :=
  View.cover_of_tiledL (kernelRun0_B c i arg2 harg2 arg3 harg3 arg4 harg4 arg5 harg5 hc0 x0 x1 x2 xo3).1 S1x96x256.size (by sl_kernel_rfl) y

/-- What the other branch leaves in the output's staging buffer: its pieces read back. -/
def out0_B_3 (c : Dev nD) (i : grid0.Coords) (arg2 : Memref sig .tc .vmem S128x256 .f32) (harg2 : arg2.IsWhole) (arg3 : Memref sig .tc .vmem S128x256 .i32) (harg3 : arg3.IsWhole) (arg4 : Memref sig .tc .vmem S128x256 .i32) (harg4 : arg4.IsWhole) (arg5 : Memref sig .tc .vmem S1x96x256 .f32) (harg5 : arg5.IsWhole) (hc0 : ¬cond0_0 i)
    (x0 : Vec F S128x256 .f32) (x1 : Vec F S128x256 .i32) (x2 : Vec F S128x256 .i32) (xo3 : Vec F S1x96x256 .f32) : Vec F S1x96x256 .f32 :=
  VO0_3.read (Elt F) (VO0_3.writes (Elt F) VO0_3.junk (kernelRun0_B c i arg2 harg2 arg3 harg3 arg4 harg4 arg5 harg5 hc0 x0 x1 x2 xo3).1)

/-! ## What the output's staging buffer holds after each point -/

/-- The accumulation: after point `n` the buffer holds what the point's branch leaves, a later point of a row over what
    the point before left. -/
def outsAt0 (c : Dev nD) : (n : ℕ) → n < cfg0.N → Vec F S1x96x256 .f32
  | 0, hn => out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (iblk m c 0 ⟨0, hn⟩) (iblk m c 1 ⟨0, hn⟩) (iblk m c 2 ⟨0, hn⟩)
  | n + 1, hn =>
    if h0 : (n + 1) % 256 = 0 then
      out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (iblk m c 0 ⟨n + 1, hn⟩) (iblk m c 1 ⟨n + 1, hn⟩) (iblk m c 2 ⟨n + 1, hn⟩)
    else
      out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn))

/-- At the first point of a row: the taken branch's contents. -/
theorem outsAt0_A (c : Dev nD) (t : Fin cfg0.N) (h0 : t.val % 256 = 0) :
    outsAt0 m c t.val t.isLt = out0_A_3 c (grid0.coords t) (ms0_0 t) (hs0_0 t) (ms0_1 t) (hs0_1 t) (ms0_2 t) (hs0_2 t) (ms0_3 t) (hs0_3 t) ((hcond0_0 t).mpr h0) (iblk m c 0 t) (iblk m c 1 t) (iblk m c 2 t) := by
  obtain ⟨n, hn⟩ := t
  cases n with
  | zero => exact rfl
  | succ n => exact (dif_pos h0).trans rfl

/-- At a later point of a row: the other branch's contents, over what the point before left. -/
theorem outsAt0_B (c : Dev nD) (t : Fin cfg0.N) (h0 : ¬t.val % 256 = 0) :
    outsAt0 m c t.val t.isLt = out0_B_3 c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t) (iblk m c 2 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The proof data -/

/-- The arrays as the region finds them; after the body each input's buffer at its block and the output's at the
    accumulation; the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- At a later point of a row the output's staging buffer holds what the body left at the point before: the buffer is
    written back only at a row's last point, and the point before a later point of a row is not that. -/
theorem before0_3_B (c : Dev nD) (t : Fin cfg0.N) (h0 : ¬t.val % 256 = 0) (d) :
    (dats m 0 c).before 3 t d = (outsAt0 m c (t.val - 1) (Nat.lt_of_le_of_lt (Nat.sub_le _ _) t.isLt)) := by
  have hN : t.val < 512 := lt_of_lt_of_eq t.isLt (show cfg0.N = 512 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 1600000 in
/-- The body at any point: the inputs' buffers hold their blocks; the point is the first of its row or a later one, and in
    the second case the output's buffer holds what the point before left; so the branch's run applies, and the pieces it
    leaves cover the output block. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  have hN : t.val < 512 := lt_of_lt_of_eq t.isLt (show cfg0.N = 512 from N_0)
  by_cases h0 : t.val % 256 = 0
  · rw [outsAt0_A m c t h0]
    unfold out0_A_3
    iintro ⟨HΦ, Ho, ⟨%d0, H0⟩, ⟨%d1, H1⟩, ⟨%d2, H2⟩, ⟨%d3, H3⟩⟩
    iapply ((kernelRun0_A c (grid0.coords t) _ _ _ _ _ _ _ _ ((hcond0_0 t).mpr h0) (iblk m c 0 t) (iblk m c 1 t) (iblk m c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_A_3 c _ _ _ _ _ _ _ _ _ _ _ _ _)
  · rw [outsAt0_B m c t h0]
    simp only [before0_3_B m c t h0]
    unfold out0_B_3
    iintro ⟨HΦ, Ho, ⟨%d0, H0⟩, ⟨%d1, H1⟩, ⟨%d2, H2⟩, ⟨%d3, H3⟩⟩
    iapply ((kernelRun0_B c (grid0.coords t) _ _ _ _ _ _ _ _ (fun h => h0 ((hcond0_0 t).mp h)) (iblk m c 0 t) (iblk m c 1 t) (iblk m c 2 t) _).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_B_3 c _ _ _ _ _ _ _ _ _ _ _ _ _ _)

/-- The body obligation at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, and every final state has each staged array at what the proof
    data compute and every other unscoped buffer as the operations after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame: the program runs and its three argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Hand

end
-- ==== Proof.Hist.lean ====
/-
  The histogram of one sample, in words.

  A sample is a probability `p` (an extended real), a label word and a group word. The group word `g` is split
  into a high part `g >> 8` (arithmetic shift) and a low part `g & 255`; the sample is counted in row
  `6·h + ch`, lane `l` of a 96 × 256 table exactly when its high part is `h` and its low part is `l`, and what
  it adds there is channel `ch` of the six channels
      1,  p,  p − p,  [label = 1],  p·[label = 1],  (p − p)·[label = 1].
  A group word outside `0 … 4095` has a high part outside `0 … 15` and is counted nowhere.
-/
import Idealize.ShloMosaic.PureOps.Ideal
import Idealize.ShloMosaic.Lib.ValueIdx

noncomputable section

namespace Cert.Hist

open Idealize.ShloMosaic

/-- A proposition as the extended real `1` or `0`. -/
def ind (p : Prop) [Decidable p] : EReal := if p then 1 else 0

/-- The weight of a label in class 1 and in class 0. -/
def w1 (lab : BitVec 32) : EReal := ind (lab = 1#32)
def w0 (lab : BitVec 32) : EReal := ind (lab = 0#32)

/-- The high and low parts of a group word: `g >> 8` (arithmetic) and `g & 255`. -/
def hiWord (g : BitVec 32) : BitVec 32 := IntOp.shrsi .vector g 8#32
def loWord (g : BitVec 32) : BitVec 32 := IntOp.andi g 255#32

/-- The six channels of a sample. -/
def chan (ch : ℕ) (p : EReal) (lab : BitVec 32) : EReal :=
  match ch with
  | 0 => 1
  | 1 => p
  | 2 => p - p
  | 3 => w1 lab
  | 4 => p * w1 lab
  | _ => (p - p) * w1 lab

/-- What one sample adds to row `r = 6·h + ch`, lane `l`: its channel `ch`, if its high part is `h` and its low
    part is `l`. -/
def contrib (p : EReal) (lab g : BitVec 32) (r : Fin 96) (l : Fin 256) : EReal :=
  (chan (r.val % 6) p lab * ind (hiWord g = BitVec.ofNat 32 (r.val / 6))) * ind (loWord g = BitVec.ofNat 32 l.val)

/-- Row `6·(a / 256) + ch` of the table, for a group `a` and a channel `ch < 6`. -/
def row (a : Fin 4096) (ch : Fin 6) : Fin 96 := ⟨(a.val / 256) * 6 + ch.val, by have := a.isLt; have := ch.isLt; omega⟩
/-- Lane `a % 256` of the table. -/
def lane (a : Fin 4096) : Fin 256 := ⟨a.val % 256, Nat.mod_lt _ (by decide)⟩

/-- The whole table of `n` samples: every sample's contribution, summed. -/
def table {n : ℕ} (P : Fin n → EReal) (L G : Fin n → BitVec 32) (r : Fin 96) (l : Fin 256) : EReal :=
  ∑ j : Fin n, contrib (P j) (L j) (G j) r l

end Cert.Hist

end
-- ==== Proof.PayIdx.lean ====
/-
  The body's stored value, read at an index.

  At a grid point the body stores, over what the output block held before (`prev`), the product of the 96 × 32768
  matrix of channel values masked by the high-part one-hot with the 32768 × 256 low-part one-hot. Read at row `r`,
  lane `l`, that is `prev` plus the sum over the point's 32768 samples of each sample's contribution to `(r, l)`;
  sample `k` of the point sits at row `k / 256`, column `k % 256` of the three 128 × 256 input blocks.
-/
import proofs.«424844_j37847251812699_3_alg».proof.Proof.Hist
import proofs.«424844_j37847251812699_3_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayIdx

open Idealize.ShloMosaic Idealize.ShloMosaic.ValueIdx Cert.KernelIdeal Cert.KernelIdeal.Gen Cert.Hist

/-- Row and column of sample `k` inside a 128 × 256 block. -/
def krow (k : Fin 32768) : Fin 128 := ⟨k.val / 256, by have := k.isLt; omega⟩
def kcol (k : Fin 32768) : Fin 256 := ⟨k.val % 256, Nat.mod_lt _ (by decide)⟩

/-- The value the first point of a core's row stores first: zero everywhere. -/
theorem pay2_apply (y : S1x96x256.Idx) : k0_pay2 (F := Ideal) y = 0 := by
  show Ideal.ofBits .f32 0x00000000#32 = 0
  exact Ideal.ofBits_zero_f32

/-! ## The product as a sum over the samples -/

theorem lhs_mm_0 (i : S96x256.Idx) (q : dot_S96x32768_S32768x256_S96x256_1_0_0_1_n_n.contr.Idx) :
    (dot_S96x32768_S32768x256_S96x256_1_0_0_1_n_n.lhsIdx i q 0).val = (i 0).val := by
  unfold DotDims.lhsIdx
  rw [dif_neg (show ¬(0 : Fin S96x32768.rank) ∈ dot_S96x32768_S32768x256_S96x256_1_0_0_1_n_n.lhsBatch by decide),
    dif_pos (show (0 : Fin S96x32768.rank) ∈ dot_S96x32768_S32768x256_S96x256_1_0_0_1_n_n.lhsNonContracting by decide)]
  rfl
theorem lhs_mm_1 (i : S96x256.Idx) (q : dot_S96x32768_S32768x256_S96x256_1_0_0_1_n_n.contr.Idx) :
    (dot_S96x32768_S32768x256_S96x256_1_0_0_1_n_n.lhsIdx i q 1).val = (q ⟨0, by decide⟩).val :=
  dot_S96x32768_S32768x256_S96x256_1_0_0_1_n_n.lhsIdx_val_of_single rfl i q
theorem rhs_mm_0 (i : S96x256.Idx) (q : dot_S96x32768_S32768x256_S96x256_1_0_0_1_n_n.contr.Idx) :
    (dot_S96x32768_S32768x256_S96x256_1_0_0_1_n_n.rhsIdx i q 0).val = (q ⟨0, by decide⟩).val :=
  dot_S96x32768_S32768x256_S96x256_1_0_0_1_n_n.rhsIdx_val_of_single rfl i q
theorem rhs_mm_1 (i : S96x256.Idx) (q : dot_S96x32768_S32768x256_S96x256_1_0_0_1_n_n.contr.Idx) :
    (dot_S96x32768_S32768x256_S96x256_1_0_0_1_n_n.rhsIdx i q 1).val = (i 1).val := by
  unfold DotDims.rhsIdx
  rw [dif_neg (show ¬(1 : Fin S32768x256.rank) ∈ dot_S96x32768_S32768x256_S96x256_1_0_0_1_n_n.rhsBatch by decide),
    dif_pos (show (1 : Fin S32768x256.rank) ∈ dot_S96x32768_S32768x256_S96x256_1_0_0_1_n_n.rhsNonContracting by decide)]
  rfl

/-- The 96 × 32768 by 32768 × 256 product into the zero accumulator, at `(r, l)`: the sum over the samples. -/
theorem mm_apply (A : FVec Ideal S96x32768 .bf16) (B : FVec Ideal S32768x256 .bf16) (r : Fin 96) (l : Fin 256) :
    matmul dot_S96x32768_S32768x256_S96x256_1_0_0_1_n_n none A B (constant (F := Ideal) S96x256 .f32 0x00000000#32) (ix2 r l)
      = ∑ k : Fin 32768, A (ix2 r k) * B (ix2 k l) := by
  simp only [matmul]
  rw [Ideal.matmul_constant_zero_apply,
    ← Equiv.sum_comp (contrEquiv1 dot_S96x32768_S32768x256_S96x256_1_0_0_1_n_n 32768 rfl rfl).symm]
  refine Finset.sum_congr rfl fun k _ => ?_
  have hk := contrEquiv1_symm_val dot_S96x32768_S32768x256_S96x256_1_0_0_1_n_n 32768 rfl rfl k
  have el : dot_S96x32768_S32768x256_S96x256_1_0_0_1_n_n.lhsIdx (ix2 r l)
      ((contrEquiv1 dot_S96x32768_S32768x256_S96x256_1_0_0_1_n_n 32768 rfl rfl).symm k) = ix2 r k := funext fun a => Fin.ext (by
    match a with
    | ⟨0, _⟩ => exact lhs_mm_0 _ _
    | ⟨1, _⟩ => exact (lhs_mm_1 _ _).trans hk)
  have er : dot_S96x32768_S32768x256_S96x256_1_0_0_1_n_n.rhsIdx (ix2 r l)
      ((contrEquiv1 dot_S96x32768_S32768x256_S96x256_1_0_0_1_n_n 32768 rfl rfl).symm k) = ix2 k l := funext fun a => Fin.ext (by
    match a with
    | ⟨0, _⟩ => exact (rhs_mm_0 _ _).trans hk
    | ⟨1, _⟩ => exact rhs_mm_1 _ _)
  rw [el, er]

/-! ## Words and one-hots -/

/-- The conversion of a widened equality bit is the indicator of the equality. -/
theorem onehot_word (a b : BitVec 32) :
    (FloatOps.sitofp (F := Ideal) .f32 ((IntOp.cmpi .eq a b).setWidth 32) : Ideal .f32) = ind (a = b) := by
  show ((((((IntOp.cmpi .eq a b).setWidth 32).toInt : ℤ) : ℝ) : EReal)) = ind (a = b)
  unfold ind
  by_cases h : a = b
  · have hc : IntOp.cmpi .eq a b = 1#1 := by
      unfold IntOp.cmpi; rw [show (a == b) = true from beq_iff_eq.mpr h]; rfl
    rw [hc, if_pos h]
    simp
  · have hc : IntOp.cmpi .eq a b = 0#1 := by
      unfold IntOp.cmpi; rw [show (a == b) = false from beq_eq_false_iff_ne.mpr h]; rfl
    rw [hc, if_neg h]
    simp

/-- The one in the narrow format is the extended real one. -/
theorem one_bf16 : Ideal.ofBits .bf16 0x3F80#16 = 1 := by
  simp [Ideal.ofBits, Ideal.ieee, -EReal.coe_mul]
  norm_num

/-! ## A block flattened: sample `k` sits at row `k / 256`, column `k % 256` -/

theorem flat_apply {α : Type} (x : S128x256.Idx → α) (k : Fin 32768) :
    shapeCast S32768 (shapeCast S128x256 x shapeCasts_S128x256_S128x256) shapeCasts_S128x256_S32768 (ix1 k)
      = x (ix2 (krow k) (kcol k)) := by
  rw [shapeCast_self]
  exact shapeCast_apply x shapeCasts_S128x256_S32768 (ix1 k) (ix2 (krow k) (kcol k)) (by
    rw [Shape.rowMajor_val_two, Shape.rowMajor_val_one]
    show k.val / 256 * 256 + k.val % 256 = k.val
    omega)

theorem pay3_apply (x : Vec Ideal S128x256 .i32) (k : Fin 32768) :
    k0_pay3 (F := Ideal) x (ix1 k) = x (ix2 (krow k) (kcol k)) :=
  flat_apply x k

/-! ## Six rows stacked: row `n` of the stack is piece `n` -/

theorem concat6_apply_0 {α : Type} (p0 p1 p2 p3 p4 p5 : S1x32768.Idx → α) (k : Fin 32768) :
    concatenate S6x32768 0 [⟨S1x32768, p0⟩, ⟨S1x32768, p1⟩, ⟨S1x32768, p2⟩, ⟨S1x32768, p3⟩, ⟨S1x32768, p4⟩, ⟨S1x32768, p5⟩] concatenates_S1x32768_S1x32768_S1x32768_S1x32768_S1x32768_S1x32768_S6x32768_d0 (ix2 (0 : Fin 6) k) = p0 (ix2 (0 : Fin 1) k) :=
  concatenate_apply_piece (0 : Fin S6x32768.rank) [⟨S1x32768, p0⟩, ⟨S1x32768, p1⟩, ⟨S1x32768, p2⟩, ⟨S1x32768, p3⟩, ⟨S1x32768, p4⟩, ⟨S1x32768, p5⟩] concatenates_S1x32768_S1x32768_S1x32768_S1x32768_S1x32768_S1x32768_S6x32768_d0 (ix2 (0 : Fin 6) k) 0 (by show 0 < 6; decide) S1x32768 p0 rfl rfl 0 rfl
    (ix2 (0 : Fin 1) k) (fun b hb => match b, hb with | ⟨0, _⟩, hb => absurd rfl hb | ⟨1, _⟩, _ => rfl) rfl

theorem concat6_apply_1 {α : Type} (p0 p1 p2 p3 p4 p5 : S1x32768.Idx → α) (k : Fin 32768) :
    concatenate S6x32768 0 [⟨S1x32768, p0⟩, ⟨S1x32768, p1⟩, ⟨S1x32768, p2⟩, ⟨S1x32768, p3⟩, ⟨S1x32768, p4⟩, ⟨S1x32768, p5⟩] concatenates_S1x32768_S1x32768_S1x32768_S1x32768_S1x32768_S1x32768_S6x32768_d0 (ix2 (1 : Fin 6) k) = p1 (ix2 (0 : Fin 1) k) :=
  concatenate_apply_piece (0 : Fin S6x32768.rank) [⟨S1x32768, p0⟩, ⟨S1x32768, p1⟩, ⟨S1x32768, p2⟩, ⟨S1x32768, p3⟩, ⟨S1x32768, p4⟩, ⟨S1x32768, p5⟩] concatenates_S1x32768_S1x32768_S1x32768_S1x32768_S1x32768_S1x32768_S6x32768_d0 (ix2 (1 : Fin 6) k) 1 (by show 1 < 6; decide) S1x32768 p1 rfl rfl 1 rfl
    (ix2 (0 : Fin 1) k) (fun b hb => match b, hb with | ⟨0, _⟩, hb => absurd rfl hb | ⟨1, _⟩, _ => rfl) rfl

theorem concat6_apply_2 {α : Type} (p0 p1 p2 p3 p4 p5 : S1x32768.Idx → α) (k : Fin 32768) :
    concatenate S6x32768 0 [⟨S1x32768, p0⟩, ⟨S1x32768, p1⟩, ⟨S1x32768, p2⟩, ⟨S1x32768, p3⟩, ⟨S1x32768, p4⟩, ⟨S1x32768, p5⟩] concatenates_S1x32768_S1x32768_S1x32768_S1x32768_S1x32768_S1x32768_S6x32768_d0 (ix2 (2 : Fin 6) k) = p2 (ix2 (0 : Fin 1) k) :=
  concatenate_apply_piece (0 : Fin S6x32768.rank) [⟨S1x32768, p0⟩, ⟨S1x32768, p1⟩, ⟨S1x32768, p2⟩, ⟨S1x32768, p3⟩, ⟨S1x32768, p4⟩, ⟨S1x32768, p5⟩] concatenates_S1x32768_S1x32768_S1x32768_S1x32768_S1x32768_S1x32768_S6x32768_d0 (ix2 (2 : Fin 6) k) 2 (by show 2 < 6; decide) S1x32768 p2 rfl rfl 2 rfl
    (ix2 (0 : Fin 1) k) (fun b hb => match b, hb with | ⟨0, _⟩, hb => absurd rfl hb | ⟨1, _⟩, _ => rfl) rfl

theorem concat6_apply_3 {α : Type} (p0 p1 p2 p3 p4 p5 : S1x32768.Idx → α) (k : Fin 32768) :
    concatenate S6x32768 0 [⟨S1x32768, p0⟩, ⟨S1x32768, p1⟩, ⟨S1x32768, p2⟩, ⟨S1x32768, p3⟩, ⟨S1x32768, p4⟩, ⟨S1x32768, p5⟩] concatenates_S1x32768_S1x32768_S1x32768_S1x32768_S1x32768_S1x32768_S6x32768_d0 (ix2 (3 : Fin 6) k) = p3 (ix2 (0 : Fin 1) k) :=
  concatenate_apply_piece (0 : Fin S6x32768.rank) [⟨S1x32768, p0⟩, ⟨S1x32768, p1⟩, ⟨S1x32768, p2⟩, ⟨S1x32768, p3⟩, ⟨S1x32768, p4⟩, ⟨S1x32768, p5⟩] concatenates_S1x32768_S1x32768_S1x32768_S1x32768_S1x32768_S1x32768_S6x32768_d0 (ix2 (3 : Fin 6) k) 3 (by show 3 < 6; decide) S1x32768 p3 rfl rfl 3 rfl
    (ix2 (0 : Fin 1) k) (fun b hb => match b, hb with | ⟨0, _⟩, hb => absurd rfl hb | ⟨1, _⟩, _ => rfl) rfl

theorem concat6_apply_4 {α : Type} (p0 p1 p2 p3 p4 p5 : S1x32768.Idx → α) (k : Fin 32768) :
    concatenate S6x32768 0 [⟨S1x32768, p0⟩, ⟨S1x32768, p1⟩, ⟨S1x32768, p2⟩, ⟨S1x32768, p3⟩, ⟨S1x32768, p4⟩, ⟨S1x32768, p5⟩] concatenates_S1x32768_S1x32768_S1x32768_S1x32768_S1x32768_S1x32768_S6x32768_d0 (ix2 (4 : Fin 6) k) = p4 (ix2 (0 : Fin 1) k) :=
  concatenate_apply_piece (0 : Fin S6x32768.rank) [⟨S1x32768, p0⟩, ⟨S1x32768, p1⟩, ⟨S1x32768, p2⟩, ⟨S1x32768, p3⟩, ⟨S1x32768, p4⟩, ⟨S1x32768, p5⟩] concatenates_S1x32768_S1x32768_S1x32768_S1x32768_S1x32768_S1x32768_S6x32768_d0 (ix2 (4 : Fin 6) k) 4 (by show 4 < 6; decide) S1x32768 p4 rfl rfl 4 rfl
    (ix2 (0 : Fin 1) k) (fun b hb => match b, hb with | ⟨0, _⟩, hb => absurd rfl hb | ⟨1, _⟩, _ => rfl) rfl

theorem concat6_apply_5 {α : Type} (p0 p1 p2 p3 p4 p5 : S1x32768.Idx → α) (k : Fin 32768) :
    concatenate S6x32768 0 [⟨S1x32768, p0⟩, ⟨S1x32768, p1⟩, ⟨S1x32768, p2⟩, ⟨S1x32768, p3⟩, ⟨S1x32768, p4⟩, ⟨S1x32768, p5⟩] concatenates_S1x32768_S1x32768_S1x32768_S1x32768_S1x32768_S1x32768_S6x32768_d0 (ix2 (5 : Fin 6) k) = p5 (ix2 (0 : Fin 1) k) :=
  concatenate_apply_piece (0 : Fin S6x32768.rank) [⟨S1x32768, p0⟩, ⟨S1x32768, p1⟩, ⟨S1x32768, p2⟩, ⟨S1x32768, p3⟩, ⟨S1x32768, p4⟩, ⟨S1x32768, p5⟩] concatenates_S1x32768_S1x32768_S1x32768_S1x32768_S1x32768_S1x32768_S6x32768_d0 (ix2 (5 : Fin 6) k) 5 (by show 5 < 6; decide) S1x32768 p5 rfl rfl 5 rfl
    (ix2 (0 : Fin 1) k) (fun b hb => match b, hb with | ⟨0, _⟩, hb => absurd rfl hb | ⟨1, _⟩, _ => rfl) rfl

theorem ind_congr {a b a' b' : BitVec 32} (ha : a = a') (hb : b = b') : ind (a = b) = ind (a' = b') := by
  subst ha hb; rfl

/-- The label-one weight of sample `k`. -/
theorem w1vec_apply (x1 : Vec Ideal S128x256 .i32) (k : Fin 32768) :
    (truncf .bf16 (sitofp (F := Ideal) .f32 (extui 32 (cmpi .eq
        (shapeCast S32768 (shapeCast S128x256 x1 shapeCasts_S128x256_S128x256) shapeCasts_S128x256_S32768)
        (broadcast S32768 1#32)) natLt_1_32)) bitsLt_bf16_f32 : FVec Ideal S32768 .bf16) (ix1 k)
      = w1 (x1 (ix2 (krow k) (kcol k))) := by
  refine (onehot_word _ _).trans ?_
  exact ind_congr (flat_apply x1 k) rfl

/-! ## The six channels of sample `k` -/

theorem pay4_apply_0 (x0 : Vec Ideal S128x256 .f32) (x1 : Vec Ideal S128x256 .i32) (k : Fin 32768) :
    k0_pay4 (F := Ideal) x0 x1 (ix2 (0 : Fin 6) k) = 1 := by
  unfold k0_pay4
  refine (concat6_apply_0 _ _ _ _ _ _ k).trans ?_
  refine (shapeCast_a_1a_apply _ _ 0 k).trans ?_
  exact one_bf16

theorem pay4_apply_1 (x0 : Vec Ideal S128x256 .f32) (x1 : Vec Ideal S128x256 .i32) (k : Fin 32768) :
    k0_pay4 (F := Ideal) x0 x1 (ix2 (1 : Fin 6) k) = x0 (ix2 (krow k) (kcol k)) := by
  unfold k0_pay4
  refine (concat6_apply_1 _ _ _ _ _ _ k).trans ?_
  refine (shapeCast_a_1a_apply _ _ 0 k).trans ?_
  exact flat_apply x0 k

theorem pay4_apply_2 (x0 : Vec Ideal S128x256 .f32) (x1 : Vec Ideal S128x256 .i32) (k : Fin 32768) :
    k0_pay4 (F := Ideal) x0 x1 (ix2 (2 : Fin 6) k) = x0 (ix2 (krow k) (kcol k)) - x0 (ix2 (krow k) (kcol k)) := by
  unfold k0_pay4
  refine (concat6_apply_2 _ _ _ _ _ _ k).trans ?_
  refine (shapeCast_a_1a_apply _ _ 0 k).trans ?_
  exact congrArg₂ (· - ·) (flat_apply x0 k) (flat_apply x0 k)

theorem pay4_apply_3 (x0 : Vec Ideal S128x256 .f32) (x1 : Vec Ideal S128x256 .i32) (k : Fin 32768) :
    k0_pay4 (F := Ideal) x0 x1 (ix2 (3 : Fin 6) k) = w1 (x1 (ix2 (krow k) (kcol k))) := by
  unfold k0_pay4
  refine (concat6_apply_3 _ _ _ _ _ _ k).trans ?_
  refine (shapeCast_a_1a_apply _ _ 0 k).trans ?_
  exact w1vec_apply x1 k

theorem pay4_apply_4 (x0 : Vec Ideal S128x256 .f32) (x1 : Vec Ideal S128x256 .i32) (k : Fin 32768) :
    k0_pay4 (F := Ideal) x0 x1 (ix2 (4 : Fin 6) k) = x0 (ix2 (krow k) (kcol k)) * w1 (x1 (ix2 (krow k) (kcol k))) := by
  unfold k0_pay4
  refine (concat6_apply_4 _ _ _ _ _ _ k).trans ?_
  refine (shapeCast_a_1a_apply _ _ 0 k).trans ?_
  exact congrArg₂ (· * ·) (flat_apply x0 k) (w1vec_apply x1 k)

theorem pay4_apply_5 (x0 : Vec Ideal S128x256 .f32) (x1 : Vec Ideal S128x256 .i32) (k : Fin 32768) :
    k0_pay4 (F := Ideal) x0 x1 (ix2 (5 : Fin 6) k)
      = (x0 (ix2 (krow k) (kcol k)) - x0 (ix2 (krow k) (kcol k))) * w1 (x1 (ix2 (krow k) (kcol k))) := by
  unfold k0_pay4
  refine (concat6_apply_5 _ _ _ _ _ _ k).trans ?_
  refine (shapeCast_a_1a_apply _ _ 0 k).trans ?_
  exact congrArg₂ (· * ·) (congrArg₂ (· - ·) (flat_apply x0 k) (flat_apply x0 k)) (w1vec_apply x1 k)

/-- Channel `ch` of sample `k`. -/
theorem pay4_apply (x0 : Vec Ideal S128x256 .f32) (x1 : Vec Ideal S128x256 .i32) (ch : Fin 6) (k : Fin 32768) :
    k0_pay4 (F := Ideal) x0 x1 (ix2 ch k) = chan ch.val (x0 (ix2 (krow k) (kcol k))) (x1 (ix2 (krow k) (kcol k))) := by
  match ch with
  | ⟨0, _⟩ => exact pay4_apply_0 x0 x1 k
  | ⟨1, _⟩ => exact pay4_apply_1 x0 x1 k
  | ⟨2, _⟩ => exact pay4_apply_2 x0 x1 k
  | ⟨3, _⟩ => exact pay4_apply_3 x0 x1 k
  | ⟨4, _⟩ => exact pay4_apply_4 x0 x1 k
  | ⟨5, _⟩ => exact pay4_apply_5 x0 x1 k

/-! ## The high-part one-hot -/

def rhi (r : Fin 96) : Fin 16 := ⟨r.val / 6, by have := r.isLt; omega⟩
def rch (r : Fin 96) : Fin 6 := ⟨r.val % 6, Nat.mod_lt _ (by decide)⟩

/-- A column of 16 broadcast along 32768 lanes reads its row. -/
theorem bcast_col_apply {α : Type} (v : S16x1.Idx → α) (h : Fin 16) (k : Fin 32768) :
    broadcastTo S16x32768 v broadcasts_S16x1_S16x32768 (ix2 h k) = v (ix2 h (0 : Fin 1)) :=
  broadcastTo_apply v broadcasts_S16x1_S16x32768 (ix2 h k) (ix2 h (0 : Fin 1)) fun a =>
    match a with
    | ⟨0, _⟩ => rfl
    | ⟨1, _⟩ => rfl

/-- Entry `(h, k)` of the high-part one-hot: whether sample `k`'s high part is `h`. -/
theorem pay5_apply (x2 : Vec Ideal S128x256 .i32) (h : Fin 16) (k : Fin 32768) :
    k0_pay5 (F := Ideal) x2 (ix2 h k) = ind (hiWord (x2 (ix2 (krow k) (kcol k))) = BitVec.ofNat 32 h.val) := by
  unfold k0_pay5
  refine (onehot_word _ _).trans ?_
  refine ind_congr ?_ ?_
  · refine (broadcastTo_1b_ab_apply _ _ h k).trans ?_
    refine (shapeCast_a_1a_apply _ _ 0 k).trans ?_
    exact congrArg (fun w => IntOp.shrsi .vector w 8#32) (pay3_apply x2 k)
  · refine (bcast_col_apply _ h k).trans ?_
    exact iota_single_apply .tc S16x1 32 0 iota_S16x1_d0_w32 (ix2 h (0 : Fin 1))

/-! ## The low-part one-hot -/

/-- A column of 32768 broadcast along 256 lanes reads its row. -/
theorem bcast_col256_apply {α : Type} (v : S32768x1.Idx → α) (k : Fin 32768) (l : Fin 256) :
    broadcastTo S32768x256 v broadcasts_S32768x1_S32768x256 (ix2 k l) = v (ix2 k (0 : Fin 1)) :=
  broadcastTo_apply v broadcasts_S32768x1_S32768x256 (ix2 k l) (ix2 k (0 : Fin 1)) fun a =>
    match a with
    | ⟨0, _⟩ => rfl
    | ⟨1, _⟩ => rfl

/-- The low part of sample `k`. -/
theorem pay6_apply (x2 : Vec Ideal S128x256 .i32) (k : Fin 32768) :
    k0_pay6 (F := Ideal) x2 (ix2 k (0 : Fin 1)) = loWord (x2 (ix2 (krow k) (kcol k))) := by
  unfold k0_pay6
  refine (shapeCast_apply _ shapeCasts_S32768_S32768x1 (ix2 k (0 : Fin 1)) (ix1 k) (by
    rw [Shape.rowMajor_val_two, Shape.rowMajor_val_one]
    show k.val = k.val * 1 + 0
    omega)).trans ?_
  exact congrArg (fun w => IntOp.andi w 255#32) (pay3_apply x2 k)

/-- Entry `(k, l)` of the low-part one-hot: whether sample `k`'s low part is `l`. -/
theorem low_apply (x2 : Vec Ideal S128x256 .i32) (k : Fin 32768) (l : Fin 256) :
    (truncf .bf16 (sitofp (F := Ideal) .f32 (extui 32 (cmpi .eq
        (broadcastTo S32768x256 (k0_pay6 (F := Ideal) x2) broadcasts_S32768x1_S32768x256)
        (broadcastTo S32768x256 (iota .tc S1x256 32 [1] iota_S1x256_d1_w32) broadcasts_S1x256_S32768x256)) natLt_1_32))
        bitsLt_bf16_f32 : FVec Ideal S32768x256 .bf16) (ix2 k l)
      = ind (loWord (x2 (ix2 (krow k) (kcol k))) = BitVec.ofNat 32 l.val) := by
  refine (onehot_word _ _).trans ?_
  refine ind_congr ?_ ?_
  · exact (bcast_col256_apply _ k l).trans (pay6_apply x2 k)
  · refine (broadcastTo_1b_ab_apply _ _ k l).trans ?_
    exact iota_single_apply .tc S1x256 32 1 iota_S1x256_d1_w32 (ix2 (0 : Fin 1) l)

/-! ## Row `r = 6·h + ch` of the left factor: channel `ch` masked by the high one-hot's row `h` -/

theorem rows_apply (U : FVec Ideal S6x32768 .bf16) (W : FVec Ideal S16x32768 .bf16) (r : Fin 96) (k : Fin 32768) :
    shapeCast S96x32768 (mulf
        (broadcastTo S16x6x32768 (shapeCast S1x6x32768 U shapeCasts_S6x32768_S1x6x32768) broadcasts_S1x6x32768_S16x6x32768)
        (broadcastTo S16x6x32768 (shapeCast S16x1x32768 W shapeCasts_S16x32768_S16x1x32768) broadcasts_S16x1x32768_S16x6x32768))
        shapeCasts_S16x6x32768_S96x32768 (ix2 r k)
      = U (ix2 (rch r) k) * W (ix2 (rhi r) k) := by
  refine (shapeCast_apply _ shapeCasts_S16x6x32768_S96x32768 (ix2 r k) (ix3 (rhi r) (rch r) k) (by
    rw [Shape.rowMajor_val_three, Shape.rowMajor_val_two]
    show (r.val / 6 * 6 + r.val % 6) * 32768 + k.val = r.val * 32768 + k.val
    omega)).trans ?_
  refine congrArg₂ (· * ·) ?_ ?_
  · refine (broadcastTo_apply _ broadcasts_S1x6x32768_S16x6x32768 (ix3 (rhi r) (rch r) k) (ix3 (0 : Fin 1) (rch r) k) fun a =>
      match a with
      | ⟨0, _⟩ => rfl
      | ⟨1, _⟩ => rfl
      | ⟨2, _⟩ => rfl).trans ?_
    exact shapeCast_ab_1ab_apply U shapeCasts_S6x32768_S1x6x32768 0 (rch r) k
  · refine (broadcastTo_apply _ broadcasts_S16x1x32768_S16x6x32768 (ix3 (rhi r) (rch r) k) (ix3 (rhi r) (0 : Fin 1) k) fun a =>
      match a with
      | ⟨0, _⟩ => rfl
      | ⟨1, _⟩ => rfl
      | ⟨2, _⟩ => rfl).trans ?_
    exact shapeCast_apply W shapeCasts_S16x32768_S16x1x32768 (ix3 (rhi r) (0 : Fin 1) k) (ix2 (rhi r) k) (by
      rw [Shape.rowMajor_val_three, Shape.rowMajor_val_two]
      show (r.val / 6) * 32768 + k.val = ((r.val / 6) * 1 + 0) * 32768 + k.val
      omega)

/-- The accumulated value at `(0, r, l)`: what was there plus the point's 32768 contributions. -/
theorem pay1_apply (x0 : Vec Ideal S128x256 .f32) (x1 x2 : Vec Ideal S128x256 .i32) (prev : Vec Ideal S1x96x256 .f32)
    (r : Fin 96) (l : Fin 256) :
    k0_pay1 (F := Ideal) (k0_pay4 x0 x1) (k0_pay5 x2) (iota .tc S1x256 32 [1] iota_S1x256_d1_w32) (k0_pay6 x2) prev
        (ix3 (0 : Fin 1) r l)
      = prev (ix3 (0 : Fin 1) r l)
          + ∑ k : Fin 32768, contrib (x0 (ix2 (krow k) (kcol k))) (x1 (ix2 (krow k) (kcol k))) (x2 (ix2 (krow k) (kcol k))) r l := by
  unfold k0_pay1
  refine (shapeCast_ab_1ab_apply _ shapeCasts_S96x256_S1x96x256 0 r l).trans ?_
  refine congrArg₂ (· + ·) (shapeCast_1ab_ab_apply prev shapeCasts_S1x96x256_S96x256 r l) ?_
  refine (mm_apply _ _ r l).trans (Finset.sum_congr rfl fun k _ => ?_)
  rw [rows_apply, pay4_apply, pay5_apply, low_apply]
  rfl

end Cert.KernelIdeal.PayIdx

end
-- ==== Proof.KBlocks.lean ====
/-
  The input blocks read at an index.

  At grid point `t` (core `t / 256`, step `t % 256`) each input window's block is rows `128·t … 128·t + 127` of its
  65536 × 256 array, and that array is the flat argument reshaped row-major: entry `(a, b)` of the block at point `t`
  is element `(128·t + a)·256 + b` of the argument.
-/
import proofs.«424844_j37847251812699_3_alg».proof.Proof.KIFrame
import Idealize.ShloMosaic.Lib.ValueIdx
import Idealize.ShloMosaic.Lib.Pipeline.Value
import Idealize.ShloMosaic.Lib.ValueLayout
import Idealize.ShloMosaic.Lib.StableHlo.Run

noncomputable section

namespace Cert.KernelIdeal.KBlocks

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand

variable {F : FTy → Type} [FloatOps F]
variable (m : (ℓ : Loc nD τ sig) → Buf (Elt F) ℓ)

/-- Where entry `(a, b)` of a block at point `t` sits in the flat argument. -/
def pos (t : Fin cfg0.N) (a : Fin 128) (b : Fin 256) : Fin 16777216 :=
  ⟨(t.val * 128 + a.val) * 256 + b.val, by
    have := lt_of_lt_of_eq t.isLt (show cfg0.N = 512 from N_0); have := a.isLt; have := b.isLt; omega⟩

/-! ## Where each window's block sits: block `(t, 0)` in blocks of 128 × 256 -/

theorem idx0 : ∀ t : Fin cfg0.N, win0_0.index t 0 = t.val ∧ win0_0.index t 1 = 0 :=
  (by decide +kernel : ∀ t : Fin grid0.N, win0_0.index t 0 = t.val ∧ win0_0.index t 1 = 0)

theorem idx1 : ∀ t : Fin cfg0.N, win0_1.index t 0 = t.val ∧ win0_1.index t 1 = 0 :=
  (by decide +kernel : ∀ t : Fin grid0.N, win0_1.index t 0 = t.val ∧ win0_1.index t 1 = 0)

theorem idx2 : ∀ t : Fin cfg0.N, win0_2.index t 0 = t.val ∧ win0_2.index t 1 = 0 :=
  (by decide +kernel : ∀ t : Fin grid0.N, win0_2.index t 0 = t.val ∧ win0_2.index t 1 = 0)

/-! ## Each window's array as the region finds it: the flat argument reshaped row-major -/

theorem V_v0 (c : Dev nD) :
    (V m c main_v0 : S65536x256.Idx → F .f32)
      = shapeCast S65536x256 (m ((c.tc : Thread nD τ).loc main_arg0)) shapeCasts_S16777216_S65536x256 := by
  dsimp only [V, V0]
  simp only [hostOps0, List.flatten_cons, List.flatten_nil, List.append_nil]
  after_results
  rfl

theorem V_v1 (c : Dev nD) :
    (V m c main_v1 : S65536x256.Idx → BitVec 32)
      = shapeCast S65536x256 (m ((c.tc : Thread nD τ).loc main_arg1)) shapeCasts_S16777216_S65536x256 := by
  dsimp only [V, V0]
  simp only [hostOps0, List.flatten_cons, List.flatten_nil, List.append_nil]
  after_results
  rfl

theorem V_v2 (c : Dev nD) :
    (V m c main_v2 : S65536x256.Idx → BitVec 32)
      = shapeCast S65536x256 (m ((c.tc : Thread nD τ).loc main_arg2)) shapeCasts_S16777216_S65536x256 := by
  dsimp only [V, V0]
  simp only [hostOps0, List.flatten_cons, List.flatten_nil, List.append_nil]
  after_results
  rfl

/-! ## The blocks at an index -/

/-- The probabilities' block at point `t`. -/
theorem iblk0_apply (c : Dev nD) (t : Fin cfg0.N) (a : Fin 128) (b : Fin 256) :
    (iblk m c 0 t : Vec F S128x256 .f32) (ix2 a b) = m ((c.tc : Thread nD τ).loc main_arg0) (ix1 (pos t a b)) := by
  have hi := idx0 t
  unfold iblk
  rw [View.read_apply]
  show V m c main_v0 _ = _
  refine (congrFun (V_v0 m c) _).trans ?_
  refine shapeCast_apply _ shapeCasts_S16777216_S65536x256 _ (ix1 (pos t a b)) ?_
  rw [Shape.rowMajor_val_two, Shape.rowMajor_val_one]
  show (t.val * 128 + a.val) * 256 + b.val
    = (win0_0.index t 0 * 128 + 1 * a.val) * 256 + (win0_0.index t 1 * 256 + 1 * b.val)
  rw [hi.1, hi.2]
  omega

/-- The labels' block at point `t`. -/
theorem iblk1_apply (c : Dev nD) (t : Fin cfg0.N) (a : Fin 128) (b : Fin 256) :
    (iblk m c 1 t : Vec F S128x256 .i32) (ix2 a b) = m ((c.tc : Thread nD τ).loc main_arg1) (ix1 (pos t a b)) := by
  have hi := idx1 t
  unfold iblk
  rw [View.read_apply]
  show V m c main_v1 _ = _
  refine (congrFun (V_v1 m c) _).trans ?_
  refine shapeCast_apply _ shapeCasts_S16777216_S65536x256 _ (ix1 (pos t a b)) ?_
  rw [Shape.rowMajor_val_two, Shape.rowMajor_val_one]
  show (t.val * 128 + a.val) * 256 + b.val
    = (win0_1.index t 0 * 128 + 1 * a.val) * 256 + (win0_1.index t 1 * 256 + 1 * b.val)
  rw [hi.1, hi.2]
  omega

/-- The group words' block at point `t`. -/
theorem iblk2_apply (c : Dev nD) (t : Fin cfg0.N) (a : Fin 128) (b : Fin 256) :
    (iblk m c 2 t : Vec F S128x256 .i32) (ix2 a b) = m ((c.tc : Thread nD τ).loc main_arg2) (ix1 (pos t a b)) := by
  have hi := idx2 t
  unfold iblk
  rw [View.read_apply]
  show V m c main_v2 _ = _
  refine (congrFun (V_v2 m c) _).trans ?_
  refine shapeCast_apply _ shapeCasts_S16777216_S65536x256 _ (ix1 (pos t a b)) ?_
  rw [Shape.rowMajor_val_two, Shape.rowMajor_val_one]
  show (t.val * 128 + a.val) * 256 + b.val
    = (win0_2.index t 0 * 128 + 1 * a.val) * 256 + (win0_2.index t 1 * 256 + 1 * b.val)
  rw [hi.1, hi.2]
  omega

end Cert.KernelIdeal.KBlocks

end
-- ==== Proof.Reindex.lean ====
/-
  Summing over all samples point by point.

  The 16777216 samples are the 512 grid points' 32768 samples each, sample `k` of point `t` being sample
  `32768·t + k` overall: a sum over all samples is the sum over the points of the sums over each point's samples.
-/
import Mathlib.Algebra.BigOperators.Fin
import Mathlib.Algebra.BigOperators.Intervals
import Mathlib.Logic.Equiv.Fin.Basic

namespace Cert.Reindex

/-- The points' sums add up to the sum over all samples. -/
theorem sum_points {M : Type*} [AddCommMonoid M] (g : ℕ → M) :
    ∑ t ∈ Finset.range 512, ∑ k : Fin 32768, g (t * 32768 + k.val) = ∑ j : Fin 16777216, g j.val := by
  have h : 512 * 32768 = 16777216 := rfl
  rw [Finset.sum_range (fun t => ∑ k : Fin 32768, g (t * 32768 + k.val)),
    ← Fintype.sum_prod_type' (fun (t : Fin 512) (k : Fin 32768) => g (t.val * 32768 + k.val))]
  refine Fintype.sum_equiv (finProdFinEquiv.trans (finCongr h)) _ _ (fun x => congrArg g ?_)
  rw [Equiv.trans_apply, finCongr_apply_coe, finProdFinEquiv_apply_val]
  omega

/-- A core's 256 points after the other core's 256: the two halves of the 512 points. -/
theorem sum_halves {M : Type*} [AddCommMonoid M] (f : ℕ → M) :
    (∑ i ∈ Finset.range 256, f (0 * 256 + i)) + (∑ i ∈ Finset.range 256, f (1 * 256 + i)) = ∑ t ∈ Finset.range 512, f t := by
  have h := Finset.sum_range_add f 256 256
  rw [show 256 + 256 = 512 from rfl] at h
  rw [h]
  simp only [zero_mul, one_mul, zero_add]

end Cert.Reindex
-- ==== Proof.KValue.lean ====
/-
  The region's result array as sums over the samples.

  The branch taken at the first point of a core's row leaves in the output's staging buffer the stored table over zeros,
  the other branch the stored table over what the buffer held; read at row `r`, lane `l`, the stored table adds the
  point's 32768 contributions. So after point `n` the buffer holds the sum of the contributions of the row's points up
  to `n` (induction on the point), the write-back at a row's last point writes the whole row's sum into the core's
  slab of the 2 × 96 × 256 array, the two write-backs cover the array, and the two slabs together hold the table of
  all 16777216 samples.
-/
import proofs.«424844_j37847251812699_3_alg».proof.Proof.KIFrame
import proofs.«424844_j37847251812699_3_alg».proof.Proof.PayIdx
import proofs.«424844_j37847251812699_3_alg».proof.Proof.KBlocks
import proofs.«424844_j37847251812699_3_alg».proof.Proof.Reindex
import Idealize.ShloMosaic.Lib.Pipeline.Value
import Idealize.ShloMosaic.Lib.Tactic

noncomputable section

namespace Cert.KernelIdeal.KValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand Cert.KernelIdeal.PayIdx Cert.KernelIdeal.KBlocks Cert.Hist

theorem hz3 : (![0, 0, 0] : Fin 3 → Nat) = fun _ => 0 := funext fun a => by fin_cases a <;> rfl
theorem hz2 : (![0, 0] : Fin 2 → Nat) = fun _ => 0 := funext fun a => by fin_cases a <;> rfl

section Pieces

variable {F : FTy → Type} [FloatOps F]

/-- A later point of a row leaves the stored table over what the buffer held. -/
theorem out_B (c : Dev nD) (i : grid0.Coords) (a2 : Memref sig .tc .vmem S128x256 .f32) (h2 : a2.IsWhole) (a3 : Memref sig .tc .vmem S128x256 .i32) (h3 : a3.IsWhole)
    (a4 : Memref sig .tc .vmem S128x256 .i32) (h4 : a4.IsWhole) (a5 : Memref sig .tc .vmem S1x96x256 .f32) (h5 : a5.IsWhole) (hc : ¬cond0_0 i)
    (x0 : Vec F S128x256 .f32) (x1 x2 : Vec F S128x256 .i32) (xo : Vec F S1x96x256 .f32) :
    out0_B_3 c i a2 h2 a3 h3 a4 h4 a5 h5 hc x0 x1 x2 xo
      = k0_pay1 (k0_pay4 x0 x1) (k0_pay5 x2) (iota .tc S1x256 32 [1] iota_S1x256_d1_w32) (k0_pay6 x2) xo := by
  unfold out0_B_3
  rw [View.read_writes_eq_canon _ _ _ (cover0_B_3 c i a2 h2 a3 h3 a4 h4 a5 h5 hc x0 x1 x2 xo)]
  unfold kernelRun0_B
  dsimp only
  sl_unfold_words
  rw [View.canon_unit_zero hz3]
  simp only [View.readAt_eq_ld, h2.read_unread, h3.read_unread, h4.read_unread, h5.read_unread, View.ld_unit_zero (S := S128x256) hz2, View.ld_unit_zero (S := S1x96x256) hz3]

/-- The first point of a row stores zeros, reads them back, and leaves the stored table over them. -/
theorem out_A (c : Dev nD) (i : grid0.Coords) (a2 : Memref sig .tc .vmem S128x256 .f32) (h2 : a2.IsWhole) (a3 : Memref sig .tc .vmem S128x256 .i32) (h3 : a3.IsWhole)
    (a4 : Memref sig .tc .vmem S128x256 .i32) (h4 : a4.IsWhole) (a5 : Memref sig .tc .vmem S1x96x256 .f32) (h5 : a5.IsWhole) (hc : cond0_0 i)
    (x0 : Vec F S128x256 .f32) (x1 x2 : Vec F S128x256 .i32) :
    out0_A_3 c i a2 h2 a3 h3 a4 h4 a5 h5 hc x0 x1 x2
      = k0_pay1 (k0_pay4 x0 x1) (k0_pay5 x2) (iota .tc S1x256 32 [1] iota_S1x256_d1_w32) (k0_pay6 x2) (k0_pay2 (F := F)) := by
  unfold out0_A_3
  rw [View.read_writes_eq_canon _ _ _ (cover0_A_3 c i a2 h2 a3 h3 a4 h4 a5 h5 hc x0 x1 x2)]
  unfold kernelRun0_A
  dsimp only
  sl_unfold_words
  rw [View.canon_cons_unit_zero (S := S1x96x256) hz3, View.readCov_unit_zero (S := S1x96x256) _ hz3]
  simp only [View.readAt_eq_ld, h2.read_unread, h3.read_unread, h4.read_unread, View.ld_unit_zero (S := S128x256) hz2, View.ld_unit_zero (S := S1x96x256) hz3]

end Pieces

variable (m : (ℓ : Loc nD τ sig) → Buf (Elt Ideal) ℓ)

/-! ## The samples, flat -/

/-- Sample `j`'s probability, label word and group word on core `c` (zero past the end). -/
def Pn (c : Dev nD) (j : ℕ) : EReal := if h : j < 16777216 then m ((c.tc : Thread nD τ).loc main_arg0) (ix1 ⟨j, h⟩) else 0
def Ln (c : Dev nD) (j : ℕ) : BitVec 32 := if h : j < 16777216 then m ((c.tc : Thread nD τ).loc main_arg1) (ix1 ⟨j, h⟩) else 0
def Gn (c : Dev nD) (j : ℕ) : BitVec 32 := if h : j < 16777216 then m ((c.tc : Thread nD τ).loc main_arg2) (ix1 ⟨j, h⟩) else 0

/-- The contributions of point `t`'s 32768 samples to row `r`, lane `l`. -/
def pointSum (c : Dev nD) (t : ℕ) (r : Fin 96) (l : Fin 256) : EReal :=
  ∑ k : Fin 32768, contrib (Pn m c (t * 32768 + k.val)) (Ln m c (t * 32768 + k.val)) (Gn m c (t * 32768 + k.val)) r l

/-- Sample `k` of point `t` is sample `32768·t + k` overall. -/
theorem pos_val (t : Fin cfg0.N) (k : Fin 32768) : (pos t (krow k) (kcol k)).val = t.val * 32768 + k.val := by
  show (t.val * 128 + k.val / 256) * 256 + k.val % 256 = _
  have := k.isLt; omega

theorem pos_lt (t : Fin cfg0.N) (k : Fin 32768) : t.val * 32768 + k.val < 16777216 := by
  rw [← pos_val]; exact (pos t (krow k) (kcol k)).isLt

/-- What the body stores at point `t` over `prev`, at row `r`, lane `l`: `prev` plus the point's contributions. -/
theorem point_eq (c : Dev nD) (t : Fin cfg0.N) (prev : Vec Ideal S1x96x256 .f32) (r : Fin 96) (l : Fin 256) :
    k0_pay1 (F := Ideal) (k0_pay4 (iblk m c 0 t) (iblk m c 1 t)) (k0_pay5 (iblk m c 2 t)) (iota .tc S1x256 32 [1] iota_S1x256_d1_w32)
        (k0_pay6 (iblk m c 2 t)) prev (ix3 (0 : Fin 1) r l)
      = prev (ix3 (0 : Fin 1) r l) + pointSum m c t.val r l := by
  rw [pay1_apply]
  refine congrArg (prev (ix3 (0 : Fin 1) r l) + ·) (Finset.sum_congr rfl fun k _ => ?_)
  have e : pos t (krow k) (kcol k) = ⟨t.val * 32768 + k.val, pos_lt t k⟩ := Fin.ext (pos_val t k)
  rw [iblk0_apply, iblk1_apply, iblk2_apply, e]
  simp only [Pn, Ln, Gn, dif_pos (pos_lt t k)]

/-! ## The accumulation, in closed form -/

/-- After point `n` the output's staging buffer holds, at row `r`, lane `l`, the contributions of the points of `n`'s row
    up to `n`. -/
theorem outsAt_eq (c : Dev nD) : ∀ (n : ℕ) (h : n < cfg0.N) (r : Fin 96) (l : Fin 256),
    outsAt0 m c n h (ix3 (0 : Fin 1) r l) = ∑ i ∈ Finset.range (n % 256 + 1), pointSum m c (n - n % 256 + i) r l
  | 0, h, r, l => by
    rw [outsAt0_A m c ⟨0, h⟩ rfl, out_A, point_eq, pay2_apply, zero_add]
    simp
  | n + 1, h, r, l => by
    by_cases h0 : (n + 1) % 256 = 0
    · rw [outsAt0_A m c ⟨n + 1, h⟩ h0, out_A, point_eq, pay2_apply, zero_add]
      show pointSum m c (n + 1) r l = _
      rw [h0]; simp
    · rw [outsAt0_B m c ⟨n + 1, h⟩ h0, out_B, point_eq]
      show outsAt0 m c n _ (ix3 (0 : Fin 1) r l) + pointSum m c (n + 1) r l = _
      rw [outsAt_eq c n (Nat.lt_of_succ_lt h) r l]
      have e1 : (n + 1) % 256 = n % 256 + 1 := by omega
      have e2 : n + 1 - (n % 256 + 1) = n - n % 256 := by omega
      have e3 : n - n % 256 + (n % 256 + 1) = n + 1 := by omega
      rw [e1, e2, Finset.sum_range_succ (n := n % 256 + 1), e3]

/-! ## The result array -/

/-- The array the region leaves: slab `q` holds the contributions of core `q`'s 256 points. -/
def slabs (c : Dev nD) : S2x96x256.Idx → EReal :=
  fun y => ∑ i ∈ Finset.range 256, pointSum m c ((y 0).val * 256 + i) (y 1) (y 2)

/-- The output window's block index at point `t`: the core `t / 256`, and zero on the other two axes. -/
theorem idx3 : ∀ t : Fin cfg0.N, win0_3.index t (0 : Fin 3) = t.val / 256 ∧ win0_3.index t (1 : Fin 3) = 0 ∧ win0_3.index t (2 : Fin 3) = 0 :=
  (by decide +kernel : ∀ t : Fin grid0.N, win0_3.index t (0 : Fin 3) = t.val / 256 ∧ win0_3.index t (1 : Fin 3) = 0 ∧ win0_3.index t (2 : Fin 3) = 0)

/-- What a row's last point writes back is its core's slab. -/
theorem flushed_eq (c : Dev nD) (t : Fin cfg0.N) (hf : (cfg0.win 3).flush t = true) :
    (dats m 0 c).flushed 3 t = ((cfg0.win 3).blk t).view.read (Elt Ideal) (slabs m c) := by
  have hN : t.val < 512 := lt_of_lt_of_eq t.isLt (show cfg0.N = 512 from N_0)
  have h255 : t.val % 256 = 255 := (flush0_3 t).mp hf
  obtain ⟨e0, e1, e2⟩ := idx3 t
  show (cfg0.win 3).cut (grid0.coords t) ((dats m 0 c).after 3 t) = _
  rw [after0_3]
  funext y
  obtain ⟨q, r, l, rfl⟩ : ∃ (q : Fin 1) (r : Fin 96) (l : Fin 256), y = ix3 q r l := ⟨y 0, y 1, y 2, eq_ix3 y⟩
  obtain rfl : q = 0 := Subsingleton.elim _ _
  rw [View.read_apply]
  have hemb : ((cfg0.win 3).blk t).view.emb (ix3 (0 : Fin 1) r l) = (ix3 (⟨t.val / 256, by omega⟩ : Fin 2) r l : S2x96x256.Idx) := by
    funext a; apply Fin.ext
    match a with
    | ⟨0, _⟩ => show win0_3.index t (0 : Fin 3) * 1 + 1 * 0 = t.val / 256; rw [e0]; omega
    | ⟨1, _⟩ => show win0_3.index t (1 : Fin 3) * 96 + 1 * r.val = r.val; rw [e1]; omega
    | ⟨2, _⟩ => show win0_3.index t (2 : Fin 3) * 256 + 1 * l.val = l.val; rw [e2]; omega
  show outsAt0 m c t.val t.isLt (ix3 (0 : Fin 1) r l) = slabs m c (((cfg0.win 3).blk t).view.emb (ix3 (0 : Fin 1) r l))
  rw [hemb, outsAt_eq, h255]
  show _ = ∑ i ∈ Finset.range 256, pointSum m c (t.val / 256 * 256 + i) r l
  have e : t.val - 255 = t.val / 256 * 256 := by omega
  rw [e]

/-- An index of the array is in point `t`'s block iff each coordinate is in the block's range on its axis. -/
theorem mem_blk3 (t : Fin cfg0.N) (i : S2x96x256.Idx) :
    i ∈ ((cfg0.win 3).blk t).view.set ↔ ∀ a : Fin 3, win0_3.index t a * S1x96x256.size a ≤ (i a).val ∧ (i a).val < win0_3.index t a * S1x96x256.size a + S1x96x256.size a := by
  show i ∈ ((View.whole main_v3).slice (win0_3.rect t)).set ↔ _
  rw [View.set_slice_whole, Rect.mem_set_unit]
  exact Iff.rfl

/-- The two write-backs cover the array: slab `q` is written at point `256·q + 255`. -/
theorem cover (i : S2x96x256.Idx) : ∃ t : Fin cfg0.N, (cfg0.win 3).flush t = true ∧ i ∈ ((cfg0.win 3).blk t).view.set := by
  have hi0 : (i 0).val < 2 := (i 0).isLt
  have hi1 : (i 1).val < 96 := (i 1).isLt
  have hi2 : (i 2).val < 256 := (i 2).isLt
  let t : Fin cfg0.N := ⟨(i 0).val * 256 + 255, by rw [show cfg0.N = 512 from N_0]; omega⟩
  obtain ⟨e0, e1, e2⟩ := idx3 t
  have hv : t.val = (i 0).val * 256 + 255 := rfl
  refine ⟨t, (flush0_3 t).mpr (by rw [hv]; omega), ?_⟩
  rw [mem_blk3]
  intro a
  match a with
  | ⟨0, _⟩ => show win0_3.index t (0 : Fin 3) * 1 ≤ (i 0).val ∧ (i 0).val < win0_3.index t (0 : Fin 3) * 1 + 1; rw [e0, hv]; omega
  | ⟨1, _⟩ => show win0_3.index t (1 : Fin 3) * 96 ≤ (i 1).val ∧ (i 1).val < win0_3.index t (1 : Fin 3) * 96 + 96; rw [e1]; omega
  | ⟨2, _⟩ => show win0_3.index t (2 : Fin 3) * 256 ≤ (i 2).val ∧ (i 2).val < win0_3.index t (2 : Fin 3) * 256 + 256; rw [e2]; omega

/-- So the region's result array ends holding the two slabs. -/
theorem final3 (c : Dev nD) : (dats m 0 c).arrAt 3 cfg0.N = slabs m c :=
  (dats m 0 c).arrAt_eq_of_cover 3 (slabs m c) (flushed_eq m c) cover

/-! ## The two slabs together: the table of all samples -/

/-- The flat arguments on core `c`. -/
abbrev Pf (c : Dev nD) (j : Fin 16777216) : EReal := m ((c.tc : Thread nD τ).loc main_arg0) (ix1 j)
abbrev Lf (c : Dev nD) (j : Fin 16777216) : BitVec 32 := m ((c.tc : Thread nD τ).loc main_arg1) (ix1 j)
abbrev Gf (c : Dev nD) (j : Fin 16777216) : BitVec 32 := m ((c.tc : Thread nD τ).loc main_arg2) (ix1 j)

/-- Row `r`, lane `l` of the two slabs added is row `r`, lane `l` of the table of all samples. -/
theorem slabs_table (c : Dev nD) (r : Fin 96) (l : Fin 256) :
    slabs m c (ix3 (0 : Fin 2) r l) + slabs m c (ix3 (1 : Fin 2) r l) = table (Pf m c) (Lf m c) (Gf m c) r l := by
  show (∑ i ∈ Finset.range 256, pointSum m c (0 * 256 + i) r l) + (∑ i ∈ Finset.range 256, pointSum m c (1 * 256 + i) r l) = _
  rw [Cert.Reindex.sum_halves (fun t => pointSum m c t r l)]
  unfold pointSum
  rw [Cert.Reindex.sum_points (fun j => contrib (Pn m c j) (Ln m c j) (Gn m c j) r l)]
  unfold table
  refine Finset.sum_congr rfl fun j _ => ?_
  simp only [Pn, Ln, Gn, dif_pos j.isLt]

end Cert.KernelIdeal.KValue

end
-- ==== Proof.Loss.lean ====
/-
  The loss as one function of the four per-group statistics.

  From a class's per-group count `cnt` and sum `s` (4096 groups): the group means `s / max(cnt, 1)`, the validity mask
  `[cnt ≥ 1]`, the number of valid groups `n`, the mean of the valid means, and the unbiased variance of the valid
  means, `Σ (mean − mean-of-means)² · valid / max(n − 1, 1)`. The loss is the average of the two classes' variances
  when both have at least two valid groups, else the variance of the class that has, else zero. Both programs end
  in exactly these operations; only where the four statistics come from differs.
-/
import Idealize.ShloMosaic.PureOps
import Idealize.ShloMosaic.Lib.StableHlo

noncomputable section

namespace Cert.Loss

open Idealize.ShloMosaic

variable {F : FTy → Type} [FloatOps F]

abbrev S4096 : Shape := ⟨1, ![4096]⟩
abbrev S_ : Shape := ⟨0, ![]⟩

section

variable (hb : S_.BroadcastsInDim S4096 (![] : Fin 0 → Fin S4096.rank)) (hr : S4096.ReducesTo [0] S_) (h0 : 0 < S_.numel)

/-- The constant one over the groups. -/
def ones : FVec F S4096 .f32 := broadcastInDim S4096 ![] hb (constant S_ .f32 0x3F800000#32)

/-- The group means: `s / max(cnt, 1)`. -/
def means (cnt s : FVec F S4096 .f32) : FVec F S4096 .f32 := Host.divf s (maximumf cnt (ones hb))

/-- The validity mask `[cnt ≥ 1]` as a float. -/
def valid (cnt : FVec F S4096 .f32) : FVec F S4096 .f32 := uitofp .f32 (cmpf .oge cnt (ones hb))

/-- The number of valid groups. -/
def nvalid (cnt : FVec F S4096 .f32) : FVec F S_ .f32 :=
  Host.reduceAdd (valid hb cnt) (constant S_ .f32 0x00000000#32) hr h0

/-- The mean of the valid group means. -/
def meanOfMeans (cnt s : FVec F S4096 .f32) : FVec F S_ .f32 :=
  Host.divf (Host.reduceAdd (mulf (means hb cnt s) (valid hb cnt)) (constant S_ .f32 0x00000000#32) hr h0)
    (maximumf (nvalid hb hr h0 cnt) (constant S_ .f32 0x3F800000#32))

/-- The deviation of each group mean from the mean of means. -/
def dev (cnt s : FVec F S4096 .f32) : FVec F S4096 .f32 :=
  subf (means hb cnt s) (broadcastInDim S4096 ![] hb (meanOfMeans hb hr h0 cnt s))

/-- The unbiased variance of the valid group means. -/
def variance (cnt s : FVec F S4096 .f32) : FVec F S_ .f32 :=
  Host.divf (Host.reduceAdd (mulf (mulf (dev hb hr h0 cnt s) (dev hb hr h0 cnt s)) (valid hb cnt)) (constant S_ .f32 0x00000000#32) hr h0)
    (maximumf (subf (nvalid hb hr h0 cnt) (constant S_ .f32 0x3F800000#32)) (constant S_ .f32 0x3F800000#32))

/-- A class has at least two valid groups. -/
def enough (cnt : FVec F S4096 .f32) : IVec S_ 1 := cmpf .oge (nvalid hb hr h0 cnt) (constant S_ .f32 0x40000000#32)

/-- The loss from the class-1 count and sum and the class-0 count and sum. -/
def loss (c1 s1 c0 s0 : FVec F S4096 .f32) : FVec F S_ .f32 :=
  select (andi (enough hb hr h0 c1) (enough hb hr h0 c0))
    (mulf (addf (variance hb hr h0 c1 s1) (variance hb hr h0 c0 s0)) (constant S_ .f32 0x3F000000#32))
    (select (enough hb hr h0 c1) (variance hb hr h0 c1 s1)
      (select (enough hb hr h0 c0) (variance hb hr h0 c0 s0) (constant S_ .f32 0x00000000#32)))

end

end Cert.Loss

end
-- ==== Proof.KTail.lean ====
/-
  The kernel program's host operations after the region, as the loss of four statistics read off the region's result.

  The region leaves a 2 × 96 × 256 table `A`: per core, row `6·h + ch`, lane `l`. The host adds the two cores' tables,
  regroups the rows as 16 × 6, and takes the six channels apart: for group `a = 256·h + l` the count of all samples is
  channel 0, their sum channels 1 + 2, the class-1 count channel 3 and the class-1 sum channels 4 + 5; the class-0
  count and sum are the differences. The remaining operations are the loss of these four.
-/
import proofs.«424844_j37847251812699_3_alg».proof.Proof.Loss
import proofs.«424844_j37847251812699_3_alg».proof.Proof.Hist
import proofs.«424844_j37847251812699_3_alg».proof.Proof.Gen.KernelIdeal.Launch
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.KTail

open Idealize.ShloMosaic Idealize.ShloMosaic.TcCoe Idealize.ShloMosaic.ValueIdx Cert.KernelIdeal Cert.KernelIdeal.Gen Cert.Hist

variable {F : FTy → Type} [FloatOps F]

/-- The two cores' tables added and the rows regrouped as 16 × 6: entry `(h, ch, l)` is row `6·h + ch`, lane `l`. -/
def tbl (A : FVec F S2x96x256 .f32) : FVec F S16x6x256 .f32 :=
  shapeCast S16x6x256
    (Host.reduceAdd A (constant S_ .f32 0x00000000#32) reducesTo_S2x96x256_S96x256_d0 h_S_) shapeCasts_S96x256_S16x6x256

/-- One channel of the regrouped table, as 16 × 256. -/
def chanOf (T : FVec F S16x6x256 .f32) (off : Fin 3 → Nat) (h : S16x6x256.Slices off S16x1x256) : FVec F S16x256 .f32 :=
  shapeCast S16x256 (extractStridedSlice S16x1x256 off T h) shapeCasts_S16x1x256_S16x256

/-- The count and the sum of all samples per group. -/
def kcAll (A : FVec F S2x96x256 .f32) : FVec F S4096 .f32 :=
  shapeCast S4096 (chanOf (tbl A) ![0, 0, 0] slices_S16x6x256_S16x1x256_0_0_0) shapeCasts_S16x256_S4096
def ksAll (A : FVec F S2x96x256 .f32) : FVec F S4096 .f32 :=
  shapeCast S4096 (addf (chanOf (tbl A) ![0, 1, 0] slices_S16x6x256_S16x1x256_0_1_0)
    (chanOf (tbl A) ![0, 2, 0] slices_S16x6x256_S16x1x256_0_2_0)) shapeCasts_S16x256_S4096

/-- The class-1 count, the class-1 sum, the class-0 count and the class-0 sum per group, from the region's table. -/
def kc1 (A : FVec F S2x96x256 .f32) : FVec F S4096 .f32 :=
  shapeCast S4096 (chanOf (tbl A) ![0, 3, 0] slices_S16x6x256_S16x1x256_0_3_0) shapeCasts_S16x256_S4096
def ks1 (A : FVec F S2x96x256 .f32) : FVec F S4096 .f32 :=
  shapeCast S4096 (addf (chanOf (tbl A) ![0, 4, 0] slices_S16x6x256_S16x1x256_0_4_0)
    (chanOf (tbl A) ![0, 5, 0] slices_S16x6x256_S16x1x256_0_5_0)) shapeCasts_S16x256_S4096
def kc0 (A : FVec F S2x96x256 .f32) : FVec F S4096 .f32 := subf (kcAll A) (kc1 A)
def ks0 (A : FVec F S2x96x256 .f32) : FVec F S4096 .f32 := subf (ksAll A) (ks1 A)

set_option maxHeartbeats 16000000 in
set_option maxRecDepth 4000 in
/-- The host operations after the region, from any contents `W` at the region's exit: the result buffer holds the loss of
    the four statistics of the region's table. -/
theorem tail_result (W : Valuation τ sig (Elt F)) :
    StableHlo.after (List.flatten [hostOps1, hostOps1_1, hostOps1_2, hostOps1_3]) W (Proc.devRef .tc main_v71)
      = Cert.Loss.loss bcast_S_S4096 reducesTo_S4096_S_d0 h_S_
          (kc1 (W (Proc.devRef .tc main_v3))) (ks1 (W (Proc.devRef .tc main_v3)))
          (kc0 (W (Proc.devRef .tc main_v3))) (ks0 (W (Proc.devRef .tc main_v3))) := by
  simp only [List.flatten_cons, List.flatten_nil, List.append_nil, List.cons_append, List.nil_append, hostOps1, hostOps1_1, hostOps1_2, hostOps1_3]
  after_results_simp
  (try simp only [StableHlo.TRef.ofBuf, StableHlo.TRef.toBuf, cast_eq])
  unfold Cert.Loss.loss Cert.Loss.enough Cert.Loss.variance Cert.Loss.dev Cert.Loss.meanOfMeans Cert.Loss.nvalid Cert.Loss.valid Cert.Loss.means Cert.Loss.ones kc0 ks0 kcAll ksAll kc1 ks1 chanOf tbl
  rfl

set_option maxHeartbeats 4000000 in
/-- They leave the three argument arrays as they were. -/
theorem tail_arg0 (W : Valuation τ sig (Elt F)) :
    StableHlo.after (List.flatten [hostOps1, hostOps1_1, hostOps1_2, hostOps1_3]) W (Proc.devRef .tc main_arg0) = W (Proc.devRef .tc main_arg0) := by
  simp only [List.flatten_cons, List.flatten_nil, List.append_nil, List.cons_append, List.nil_append, hostOps1, hostOps1_1, hostOps1_2, hostOps1_3]
  after_results_simp
set_option maxHeartbeats 4000000 in
theorem tail_arg1 (W : Valuation τ sig (Elt F)) :
    StableHlo.after (List.flatten [hostOps1, hostOps1_1, hostOps1_2, hostOps1_3]) W (Proc.devRef .tc main_arg1) = W (Proc.devRef .tc main_arg1) := by
  simp only [List.flatten_cons, List.flatten_nil, List.append_nil, List.cons_append, List.nil_append, hostOps1, hostOps1_1, hostOps1_2, hostOps1_3]
  after_results_simp
set_option maxHeartbeats 4000000 in
theorem tail_arg2 (W : Valuation τ sig (Elt F)) :
    StableHlo.after (List.flatten [hostOps1, hostOps1_1, hostOps1_2, hostOps1_3]) W (Proc.devRef .tc main_arg2) = W (Proc.devRef .tc main_arg2) := by
  simp only [List.flatten_cons, List.flatten_nil, List.append_nil, List.cons_append, List.nil_append, hostOps1, hostOps1_1, hostOps1_2, hostOps1_3]
  after_results_simp

/-- The two cores' tables added: entry `(r, l)`. -/
def both (A : FVec Ideal S2x96x256 .f32) (r : Fin 96) (l : Fin 256) : EReal :=
  A (ix3 (0 : Fin 2) r l) + A (ix3 (1 : Fin 2) r l)

/-- The high part `a / 256` of a group. -/
def hi (a : Fin 4096) : Fin 16 := ⟨a.val / 256, by have := a.isLt; omega⟩

/-- A 16 × 256 array flattened reads, at group `a`, its entry `(a / 256, a % 256)`. -/
theorem flat_apply {α : Type} (X : S16x256.Idx → α) (a : Fin 4096) :
    shapeCast S4096 X shapeCasts_S16x256_S4096 (ix1 a) = X (ix2 (hi a) (lane a)) :=
  shapeCast_apply X _ _ _ (by
    rw [Shape.rowMajor_val_two, Shape.rowMajor_val_one]
    show (a.val / 256) * 256 + a.val % 256 = a.val
    omega)

/-- Channel `k` of the regrouped table at `(h, l)`. -/
theorem chanOf_apply (T : FVec F S16x6x256 .f32) (o : Nat) (h : S16x6x256.Slices ![0, o, 0] S16x1x256)
    (hh : Fin 16) (l : Fin 256) (k : Fin 6) (hk : k.val = o) :
    chanOf T ![0, o, 0] h (ix2 hh l) = T (ix3 hh k l) := by
  unfold chanOf
  rw [shapeCast_apply _ shapeCasts_S16x1x256_S16x256 (ix2 hh l) (ix3 hh (0 : Fin 1) l) (by
    rw [Shape.rowMajor_val_two, Shape.rowMajor_val_three]
    show (hh.val * 1 + 0) * 256 + l.val = hh.val * 256 + l.val
    omega)]
  exact slice3_axis1_apply o T h hh (0 : Fin 1) l k (by rw [hk]; rfl)

/-- The regrouped table at `(h, ch, l)`: both cores' row `6·h + ch`, lane `l`. -/
theorem tbl_apply (A : FVec Ideal S2x96x256 .f32) (hh : Fin 16) (ch : Fin 6) (l : Fin 256) (r : Fin 96)
    (hr : r.val = hh.val * 6 + ch.val) : tbl (F := Ideal) A (ix3 hh ch l) = both A r l := by
  unfold tbl
  rw [shapeCast_apply _ shapeCasts_S96x256_S16x6x256 (ix3 hh ch l) (ix2 r l) (by
    rw [Shape.rowMajor_val_two, Shape.rowMajor_val_three]
    show r.val * 256 + l.val = (hh.val * 6 + ch.val) * 256 + l.val
    rw [hr])]
  show Ideal.hostReduceAdd reducesTo_S2x96x256_S96x256_d0 A (Ideal.ofBits .f32 0x00000000#32) (ix2 r l) = _
  have hR : S2x96x256.Reduces [0] S96x256 := by decide
  rw [Ideal.hostReduceAdd_single reducesTo_S2x96x256_S96x256_d0 hR, Ideal.ofBits_zero_f32, zero_add]
  have hl : ∀ k : Fin 2, hR.lift (ix2 r l) k = ix3 k r l := fun k => funext fun a => by
    match a with
    | ⟨0, _⟩ => exact Fin.ext rfl
    | ⟨1, _⟩ => exact Fin.ext rfl
    | ⟨2, _⟩ => exact Fin.ext rfl
  show ∑ k : Fin 2, A (hR.lift (ix2 r l) k) = _
  rw [Fin.sum_univ_two, hl, hl]
  rfl

/-- The four statistics at group `a`, over the extended reals. -/
theorem kcAll_apply (A : FVec Ideal S2x96x256 .f32) (a : Fin 4096) :
    kcAll (F := Ideal) A (ix1 a) = both A (row a 0) (lane a) := by
  unfold kcAll
  rw [flat_apply, chanOf_apply (tbl A) 0 _ (hi a) (lane a) (0 : Fin 6) rfl]
  exact tbl_apply A (hi a) 0 (lane a) (row a 0) rfl
theorem ksAll_apply (A : FVec Ideal S2x96x256 .f32) (a : Fin 4096) :
    ksAll (F := Ideal) A (ix1 a) = both A (row a 1) (lane a) + both A (row a 2) (lane a) := by
  unfold ksAll
  rw [flat_apply, addf_apply, chanOf_apply (tbl A) 1 _ (hi a) (lane a) (1 : Fin 6) rfl,
    chanOf_apply (tbl A) 2 _ (hi a) (lane a) (2 : Fin 6) rfl,
    tbl_apply A (hi a) 1 (lane a) (row a 1) rfl, tbl_apply A (hi a) 2 (lane a) (row a 2) rfl]
theorem kc1_apply (A : FVec Ideal S2x96x256 .f32) (a : Fin 4096) :
    kc1 (F := Ideal) A (ix1 a) = both A (row a 3) (lane a) := by
  unfold kc1
  rw [flat_apply, chanOf_apply (tbl A) 3 _ (hi a) (lane a) (3 : Fin 6) rfl]
  exact tbl_apply A (hi a) 3 (lane a) (row a 3) rfl
theorem ks1_apply (A : FVec Ideal S2x96x256 .f32) (a : Fin 4096) :
    ks1 (F := Ideal) A (ix1 a) = both A (row a 4) (lane a) + both A (row a 5) (lane a) := by
  unfold ks1
  rw [flat_apply, addf_apply, chanOf_apply (tbl A) 4 _ (hi a) (lane a) (4 : Fin 6) rfl,
    chanOf_apply (tbl A) 5 _ (hi a) (lane a) (5 : Fin 6) rfl,
    tbl_apply A (hi a) 4 (lane a) (row a 4) rfl, tbl_apply A (hi a) 5 (lane a) (row a 5) rfl]
theorem kc0_apply (A : FVec Ideal S2x96x256 .f32) (a : Fin 4096) :
    kc0 (F := Ideal) A (ix1 a) = both A (row a 0) (lane a) - both A (row a 3) (lane a) := by
  unfold kc0
  rw [subf_apply, kcAll_apply, kc1_apply]
theorem ks0_apply (A : FVec Ideal S2x96x256 .f32) (a : Fin 4096) :
    ks0 (F := Ideal) A (ix1 a)
      = (both A (row a 1) (lane a) + both A (row a 2) (lane a)) - (both A (row a 4) (lane a) + both A (row a 5) (lane a)) := by
  unfold ks0
  rw [subf_apply, ksAll_apply, ks1_apply]

end Cert.KernelIdeal.KTail

end
-- ==== Proof.LibScatterHit.lean ====
import Idealize.ShloMosaic.PureOps.Dims
import Idealize.ShloMosaic.Lib.StableHlo.Predicate
import Idealize.ShloMosaic.Lib.ValueIdx

/-!
# Where a scatter over a rank-1 operand lands

jax's `x.at[idx].add(v)` (and `segment_sum`) over a rank-1 operand of length `N` prints as a
`stablehlo.scatter` whose scatter indices are the [n × 1] COLUMN of positions and whose updates are
the length-`n` vector: no update window axes, the operand's one axis inserted and scatter-indexed,
the index vector on axis 1. This file reads the operand position of one update off the index column.
-/

namespace Cert.Lib.ScatterHit

open Idealize.ShloMosaic
open Idealize.ShloMosaic.StableHlo.Predicate (ixP)
open Idealize.ShloMosaic.ValueIdx (ix1)

/-- THE HIT. For the scatter of a length-`n` update vector into a rank-1 operand of length `N` through an
    [n × 1] column of positions (`huw` … `hivd`: the printed dimension numbers, each by `rfl`): if update `p`
    lands on operand position `a`, then the index word of row `p`, read SIGNED, is `a`.

    The result index on the operand's one axis is start plus window coordinate. The axis is inserted, so it
    is not a kept axis and its window coordinate is `0`; it is the one axis the scatter map names, so its
    start is the signed value of the index word at row `p`, component `0` — the scatter-indices index whose
    axis-0 coordinate is `p`'s coordinate on the one update scatter axis and whose index-vector coordinate
    is the component number. Landing inside the operand makes that signed value nonnegative, so taking its
    natural-number part loses nothing. (An index outside the operand lands nowhere: it never gives `some a`.) -/
theorem scatter_hit {N n w : Nat} (d : ScatterDims ⟨1, ![N]⟩ ⟨2, ![n, 1]⟩ ⟨1, ![n]⟩)
    (huw : d.updateWindowDims = []) (hiw : d.insertedWindowDims = [0])
    (hsd : d.scatterDimsToOperandDims = [0]) (hivd : d.indexVectorDim = 1)
    (idx : IVec ⟨2, ![n, 1]⟩ w) (p : Fin n) (a : (⟨1, ![N]⟩ : Shape).Idx)
    (h : d.resultIdx? (ix1 p) idx = some a) :
    (idx (ixP p)).toInt = (((a 0).val : Nat) : Int) := by
  unfold ScatterDims.resultIdx? at h
  split at h
  · next hall =>
    -- inside the operand on every axis: `a` is start plus window coordinate, as a natural number
    have ha := Option.some.inj h
    subst ha
    have h0 := hall 0
    -- the operand's axis is inserted, so it is not among the kept axes: no window coordinate
    have hk : (0 : Fin 1) ∉ d.sKept := by
      show (0 : Fin 1) ∉ Shape.kept _ d.insertedWindowDims
      rw [hiw]; simp [Shape.kept]
    -- and it is the axis the scatter map names
    have hm : (0 : Fin 1) ∈ d.scatterDimsToOperandDims := by rw [hsd]; exact List.mem_singleton.mpr rfl
    have hw : d.window (ix1 p) 0 = 0 := by unfold ScatterDims.window; rw [dif_neg hk]
    have hs : d.start (ix1 p) idx 0 = (idx (ixP p)).toInt := by
      unfold ScatterDims.start
      rw [dif_pos hm]
      congr 2
      funext b
      match b with
      | ⟨0, _⟩ =>
        -- axis 0 of the scatter indices is not the index vector's: it reads the update's one scatter axis
        unfold ScatterDims.siIdx
        rw [dif_neg (by rw [hivd]; simp)]
        unfold ScatterDims.siCoord
        apply Fin.ext
        simp only [Fin.val_cast]
        have e : ∀ X : Fin 1, ((ix1 p : (⟨1, ![n]⟩ : Shape).Idx) X).val = p.val := fun X => by
          have hX : X = 0 := Subsingleton.elim _ _
          subst hX; rfl
        exact e _
      | ⟨1, _⟩ =>
        -- axis 1 is the index vector's: the component number, the position of operand axis 0 in the map
        unfold ScatterDims.siIdx
        rw [dif_pos (by rw [hivd])]
        apply Fin.ext
        show List.idxOf (0 : Fin 1) d.scatterDimsToOperandDims = 0
        rw [hsd]; simp
    show _ = ((d.start (ix1 p) idx 0 + d.window (ix1 p) 0).toNat : Int)
    rw [hw, hs] at h0 ⊢
    omega
  · exact absurd h (by simp)

end Cert.Lib.ScatterHit
-- ==== Proof.HistMath.lean ====
/-
  The table of all samples against the four segment sums.

  For a group `a < 4096`, a sample is counted in the rows of `a` exactly when its group word, read signed, is `a`
  (its high part is `a / 256` and its low part `a % 256`). So each channel's entry at `a` is the sum of that
  channel over the samples of group `a`; with finite probabilities `p − p = 0`, and with labels in `{0, 1}`
  `1 − [label = 1] = [label = 0]`: the class-0 count and sum are the differences of the totals and the class-1 ones.
-/
import proofs.«424844_j37847251812699_3_alg».proof.Proof.Hist
import proofs.«424844_j37847251812699_3_alg».proof.Proof.LibScatterHit

noncomputable section

namespace Cert.Hist

open Idealize.ShloMosaic
open Idealize.ShloMosaic.StableHlo.Predicate (ixP)
open Idealize.ShloMosaic.ValueIdx (ix1)

/-- A group word has high part `a / 256` and low part `a % 256` exactly when, read signed, it is `a`. -/
theorem hit_iff (g : BitVec 32) (a : Fin 4096) :
    (hiWord g = BitVec.ofNat 32 (a.val / 256) ∧ loWord g = BitVec.ofNat 32 (a.val % 256)) ↔ g.toInt = (a.val : Int) := by
  have ha := a.isLt
  have h8 : (8#32).toNat < 32 := by decide
  -- the high part, read signed, is the signed value divided by 256 (rounding down)
  have hhi : (hiWord g).toInt = g.toInt / 256 := by
    unfold hiWord IntOp.shrsi
    rw [if_pos h8, BitVec.sshiftRight_eq', BitVec.toInt_sshiftRight, Int.shiftRight_eq_div_pow]
    rfl
  -- the low part, read unsigned, is the unsigned value modulo 256
  have hlo : (loWord g).toNat = g.toNat % 256 := by
    unfold loWord IntOp.andi
    rw [BitVec.toNat_and]
    exact Nat.and_two_pow_sub_one_eq_mod g.toNat 8
  have hg := BitVec.toInt_eq_toNat_cond g
  have hgl := g.isLt
  have hA := BitVec.toInt_eq_toNat_cond (BitVec.ofNat 32 (a.val / 256))
  rw [BitVec.toNat_ofNat] at hA
  have hB : (BitVec.ofNat 32 (a.val % 256)).toNat = a.val % 256 % 2 ^ 32 := BitVec.toNat_ofNat _ _
  constructor
  · rintro ⟨h1, h2⟩
    have e1 := congrArg BitVec.toInt h1
    have e2 := congrArg BitVec.toNat h2
    rw [hhi] at e1
    rw [hlo] at e2
    split at hg <;> split at hA <;> omega
  · intro h
    refine ⟨BitVec.eq_of_toInt_eq ?_, BitVec.eq_of_toNat_eq ?_⟩
    · rw [hhi]
      split at hg <;> split at hA <;> omega
    · rw [hlo, hB]
      split at hg <;> omega

/-- Where an update lands: update `j` of a scatter of a length-`n` vector into a rank-1 operand of length `N`
    through an [n × 1] column of positions lands on position `a` exactly when its index word, read signed, is `a`. -/
theorem landing {N n w : Nat} (d : ScatterDims ⟨1, ![N]⟩ ⟨2, ![n, 1]⟩ ⟨1, ![n]⟩)
    (huw : d.updateWindowDims = []) (hiw : d.insertedWindowDims = [0])
    (hsd : d.scatterDimsToOperandDims = [0]) (hivd : d.indexVectorDim = 1)
    (idx : IVec ⟨2, ![n, 1]⟩ w) (p : Fin n) (a : Fin N) :
    d.resultIdx? (ix1 p) idx = some (ix1 a) ↔ (idx (ixP p)).toInt = (a.val : Int) := by
  constructor
  · intro h
    exact Cert.Lib.ScatterHit.scatter_hit d huw hiw hsd hivd idx p (ix1 a) h
  · intro h
    -- the operand's axis is inserted, so it is not among the kept axes: no window coordinate
    have hk : (0 : Fin 1) ∉ d.sKept := by
      show (0 : Fin 1) ∉ Shape.kept _ d.insertedWindowDims
      rw [hiw]; simp [Shape.kept]
    -- and it is the axis the scatter map names
    have hm : (0 : Fin 1) ∈ d.scatterDimsToOperandDims := by rw [hsd]; exact List.mem_singleton.mpr rfl
    have hw : d.window (ix1 p) 0 = 0 := by unfold ScatterDims.window; rw [dif_neg hk]
    -- so the start on that axis is the signed value of the index word at row `p`, component `0`
    have hs : d.start (ix1 p) idx 0 = (idx (ixP p)).toInt := by
      unfold ScatterDims.start
      rw [dif_pos hm]
      congr 2
      funext b
      match b with
      | ⟨0, _⟩ =>
        unfold ScatterDims.siIdx
        rw [dif_neg (by rw [hivd]; simp)]
        unfold ScatterDims.siCoord
        apply Fin.ext
        simp only [Fin.val_cast]
        have e : ∀ X : Fin 1, ((ix1 p : (⟨1, ![n]⟩ : Shape).Idx) X).val = p.val := fun X => by
          have hX : X = 0 := Subsingleton.elim _ _
          subst hX; rfl
        exact e _
      | ⟨1, _⟩ =>
        unfold ScatterDims.siIdx
        rw [dif_pos (by rw [hivd])]
        apply Fin.ext
        show List.idxOf (0 : Fin 1) d.scatterDimsToOperandDims = 0
        rw [hsd]; simp
    have haN := a.isLt
    -- start plus window coordinate is `a`, inside the operand on its one axis
    have hall : ∀ b, 0 ≤ d.start (ix1 p) idx b + d.window (ix1 p) b
        ∧ d.start (ix1 p) idx b + d.window (ix1 p) b < (⟨1, ![N]⟩ : Shape).size b := by
      intro b
      obtain rfl : b = 0 := Subsingleton.elim _ _
      rw [hw, hs, h]
      show (0 : Int) ≤ (a.val : Int) + ((0 : Nat) : Int) ∧ (a.val : Int) + ((0 : Nat) : Int) < (N : Int)
      omega
    unfold ScatterDims.resultIdx?
    rw [dif_pos hall]
    congr 1
    funext b
    obtain rfl : b = 0 := Subsingleton.elim _ _
    apply Fin.ext
    show (d.start (ix1 p) idx 0 + d.window (ix1 p) 0).toNat = a.val
    rw [hw, hs, h]
    omega

/-- A finite sum of reals, taken in the extended reals, is the sum of the coercions. -/
theorem coe_sum_real {ι : Type*} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A sum of extended reals each of which is a real number is a real number. -/
theorem sum_real {ι : Type*} (s : Finset ι) (f : ι → EReal) (hf : ∀ i, ∃ x : ℝ, f i = (x : EReal)) :
    ∃ x : ℝ, ∑ i ∈ s, f i = (x : EReal) := by
  choose x hx using hf
  exact ⟨∑ i ∈ s, x i, by rw [coe_sum_real]; exact Finset.sum_congr rfl fun i _ => hx i⟩

/-- The class weights are the real numbers `0` and `1`. -/
theorem w1_real (lab : BitVec 32) : ∃ x : ℝ, w1 lab = (x : EReal) := by
  unfold w1 ind
  split
  · exact ⟨1, by simp⟩
  · exact ⟨0, by simp⟩

/-- With a label in `{0, 1}`, the two class weights add up to `1`. -/
theorem w0_add_w1 (lab : BitVec 32) (h : lab = 0#32 ∨ lab = 1#32) : w0 lab + w1 lab = 1 := by
  unfold w0 w1 ind
  rcases h with h | h
  · subst h
    rw [if_pos rfl, if_neg (by decide), add_zero]
  · subst h
    rw [if_neg (by decide), if_pos rfl, zero_add]

/-- One sample at the rows of group `a`: its channel, if its group word read signed is `a`. -/
theorem contrib_row (p : EReal) (lab g : BitVec 32) (a : Fin 4096) (ch : Fin 6) :
    contrib p lab g (row a ch) (lane a) = chan ch.val p lab * ind (g.toInt = (a.val : Int)) := by
  have hc := ch.isLt
  have h6 : (row a ch).val % 6 = ch.val := by
    show (a.val / 256 * 6 + ch.val) % 6 = ch.val
    omega
  have hd : (row a ch).val / 6 = a.val / 256 := by
    show (a.val / 256 * 6 + ch.val) / 6 = a.val / 256
    omega
  have hl : (lane a).val = a.val % 256 := rfl
  have hiff := hit_iff g a
  unfold contrib
  rw [h6, hd, hl, mul_assoc]
  congr 1
  unfold ind
  by_cases h : g.toInt = (a.val : Int)
  · obtain ⟨h1, h2⟩ := hiff.mpr h
    rw [if_pos h1, if_pos h2, if_pos h, mul_one]
  · rw [if_neg h]
    by_cases h1 : hiWord g = BitVec.ofNat 32 (a.val / 256)
    · have h2 : ¬ loWord g = BitVec.ofNat 32 (a.val % 256) := fun h2 => h (hiff.mp ⟨h1, h2⟩)
      rw [if_neg h2, mul_zero]
    · rw [if_neg h1, zero_mul]

section Sums

variable {n : ℕ} (P : Fin n → EReal) (L G : Fin n → BitVec 32)
  (hfin : ∀ j, ∃ x : ℝ, P j = (x : EReal)) (hlab : ∀ j, L j = 0#32 ∨ L j = 1#32) (a : Fin 4096)

/-- The samples of group `a`. -/
def inGroup : Finset (Fin n) := Finset.univ.filter fun j => (G j).toInt = (a.val : Int)

/-- Each channel's entry at `a` is that channel summed over the samples of group `a`. -/
theorem table_row (ch : Fin 6) :
    table P L G (row a ch) (lane a) = ∑ j ∈ inGroup G a, chan ch.val (P j) (L j) := by
  unfold table inGroup
  rw [Finset.sum_filter]
  refine Finset.sum_congr rfl fun j _ => ?_
  rw [contrib_row]
  unfold ind
  split
  · rw [mul_one]
  · rw [mul_zero]

include hfin in
/-- A finite probability less itself is `0`. -/
theorem sub_self_fin (j : Fin n) : P j - P j = 0 := by
  obtain ⟨x, hx⟩ := hfin j
  rw [hx, ← EReal.coe_sub, sub_self, EReal.coe_zero]

include hfin in
/-- The `p − p` channels sum to `0`. -/
theorem table_row2 : table P L G (row a 2) (lane a) = 0 := by
  rw [table_row]
  refine Finset.sum_eq_zero fun j _ => ?_
  show P j - P j = 0
  exact sub_self_fin P hfin j

include hfin in
theorem table_row5 : table P L G (row a 5) (lane a) = 0 := by
  rw [table_row]
  refine Finset.sum_eq_zero fun j _ => ?_
  show (P j - P j) * w1 (L j) = 0
  rw [sub_self_fin P hfin j, zero_mul]

/-- The class-1 count at `a`. -/
theorem table_cnt1 : table P L G (row a 3) (lane a) = ∑ j ∈ inGroup G a, w1 (L j) := by
  rw [table_row]
  exact Finset.sum_congr rfl fun j _ => rfl

include hfin in
/-- The class-1 sum at `a`: its two channels together. -/
theorem table_sum1 : table P L G (row a 4) (lane a) + table P L G (row a 5) (lane a) = ∑ j ∈ inGroup G a, P j * w1 (L j) := by
  rw [table_row5 P L G hfin a, add_zero, table_row]
  exact Finset.sum_congr rfl fun j _ => rfl

include hlab in
/-- The class-0 count at `a`: all samples of the group less those of class 1. -/
theorem table_cnt0 : table P L G (row a 0) (lane a) - table P L G (row a 3) (lane a) = ∑ j ∈ inGroup G a, w0 (L j) := by
  rw [table_cnt1, table_row]
  -- every sample counts `1 = [label = 0] + [label = 1]`, and the class-1 count is a real number
  have h1 : ∑ j ∈ inGroup G a, chan (0 : Fin 6).val (P j) (L j)
      = ∑ j ∈ inGroup G a, w0 (L j) + ∑ j ∈ inGroup G a, w1 (L j) := by
    rw [← Finset.sum_add_distrib]
    refine Finset.sum_congr rfl fun j _ => ?_
    show (1 : EReal) = w0 (L j) + w1 (L j)
    rw [w0_add_w1 (L j) (hlab j)]
  obtain ⟨x, hx⟩ := sum_real (inGroup G a) (fun j => w1 (L j)) (fun j => w1_real (L j))
  rw [h1, hx, EReal.add_sub_cancel_right]

include hfin hlab in
/-- The class-0 sum at `a`: the group's total less its class-1 sum. -/
theorem table_sum0 :
    (table P L G (row a 1) (lane a) + table P L G (row a 2) (lane a))
      - (table P L G (row a 4) (lane a) + table P L G (row a 5) (lane a)) = ∑ j ∈ inGroup G a, P j * w0 (L j) := by
  rw [table_sum1 P L G hfin a, table_row2 P L G hfin a, add_zero, table_row]
  -- every probability splits as `p·[label = 0] + p·[label = 1]`, and the class-1 sum is a real number
  have h1 : ∑ j ∈ inGroup G a, chan (1 : Fin 6).val (P j) (L j)
      = ∑ j ∈ inGroup G a, P j * w0 (L j) + ∑ j ∈ inGroup G a, P j * w1 (L j) := by
    rw [← Finset.sum_add_distrib]
    refine Finset.sum_congr rfl fun j _ => ?_
    show P j = P j * w0 (L j) + P j * w1 (L j)
    rcases hlab j with h | h
    · have e0 : w0 (L j) = 1 := by unfold w0 ind; rw [if_pos h]
      have e1 : w1 (L j) = 0 := by unfold w1 ind; rw [if_neg (by rw [h]; decide)]
      rw [e0, e1, mul_one, mul_zero, add_zero]
    · have e0 : w0 (L j) = 0 := by unfold w0 ind; rw [if_neg (by rw [h]; decide)]
      have e1 : w1 (L j) = 1 := by unfold w1 ind; rw [if_pos h]
      rw [e0, e1, mul_one, mul_zero, zero_add]
  obtain ⟨x, hx⟩ := sum_real (inGroup G a) (fun j => P j * w1 (L j)) (fun j => by
    obtain ⟨y, hy⟩ := hfin j
    obtain ⟨z, hz⟩ := w1_real (L j)
    exact ⟨y * z, by rw [hy, hz, EReal.coe_mul]⟩)
  rw [h1, hx, EReal.add_sub_cancel_right]

end Sums

end Cert.Hist

end
-- ==== Proof.RefTail.lean ====
/-
  The reference program's result as the loss of its four segment sums, and the segment sums read at a group.

  The reference builds, for each class `y ∈ {1, 0}`, the weight `[label = y]`, and scatter-adds the weights and the
  weighted probabilities into 4096 groups through the group words. Over the extended reals the scatter-add at group `a`
  is zero plus the sum of the updates whose group word, read signed, is `a`; an update whose word is outside
  `0 … 4095` lands nowhere.
-/
import proofs.«424844_j37847251812699_3_alg».proof.Proof.Loss
import proofs.«424844_j37847251812699_3_alg».proof.Proof.HistMath
import proofs.«424844_j37847251812699_3_alg».proof.Proof.RefRunP
import Idealize.ShloMosaic.Lib.ValueIdx
import Idealize.ShloMosaic.Lib.StableHlo.Predicate
import Idealize.ShloMosaic.PureOps.Ideal.Laws

noncomputable section

namespace Cert.ReferenceIdeal.RefTail

open Idealize.ShloMosaic Idealize.ShloMosaic.TcCoe Idealize.ShloMosaic.ValueIdx Cert.ReferenceIdeal Cert.ReferenceIdeal.Gen Cert.Hist

variable {F : FTy → Type} [FloatOps F]

/-- The weight `[label = y]` of every sample, as a float vector. -/
def weight (y : BitVec 32) (lab : IVec S16777216 32) : FVec F S16777216 .f32 :=
  uitofp (F := F) .f32 (cmpi .eq lab (broadcastInDim S16777216 ![] bcast_S_S16777216 (constantI S_ 32 y)))

/-- The scatter-add of an update vector into 4096 zeros through the group words. -/
def segSum (grp : IVec S16777216 32) (u : FVec F S16777216 .f32) : FVec F S4096 .f32 :=
  Host.scatterAdd scatter_S4096_S16777216x1_S16777216_n_0_0_1 (broadcastInDim S4096 ![] bcast_S_S4096 (constant S_ .f32 0x00000000#32))
    (broadcastInDim S16777216x1 ![0] bcast_S16777216_S16777216x1_0 grp) u

/-- The per-group count and sum of class `y`. -/
def rcnt (y : BitVec 32) (lab grp : IVec S16777216 32) : FVec F S4096 .f32 := segSum grp (weight y lab)
def rsum (y : BitVec 32) (x : FVec F S16777216 .f32) (lab grp : IVec S16777216 32) : FVec F S4096 .f32 :=
  segSum grp (mulf x (weight y lab))

set_option maxRecDepth 8192 in
set_option maxHeartbeats 4000000 in
/-- The reference's result is the loss of its four segment sums. -/
theorem res_eq (m : (ℓ : Loc nD τ sig) → Buf (Elt F) ℓ) (c : Dev nD) :
    Cert.ReferenceIdeal.ValueP.res_main_v65 m c
      = Cert.Loss.loss bcast_S_S4096 reducesTo_S4096_S_d0 h_S_
          (rcnt 1#32 (m ((c.tc : Thread nD τ).loc main_arg1)) (m ((c.tc : Thread nD τ).loc main_arg2)))
          (rsum 1#32 (m ((c.tc : Thread nD τ).loc main_arg0)) (m ((c.tc : Thread nD τ).loc main_arg1)) (m ((c.tc : Thread nD τ).loc main_arg2)))
          (rcnt 0#32 (m ((c.tc : Thread nD τ).loc main_arg1)) (m ((c.tc : Thread nD τ).loc main_arg2)))
          (rsum 0#32 (m ((c.tc : Thread nD τ).loc main_arg0)) (m ((c.tc : Thread nD τ).loc main_arg1)) (m ((c.tc : Thread nD τ).loc main_arg2))) := by
  rfl

/-- A rank-1 index from its coordinate, in its two spellings. -/
theorem ofFin_eq_ix1 {n : Nat} (p : Fin n) : (Shape.Idx.ofFin p : (⟨1, ![n]⟩ : Shape).Idx) = ix1 p := by
  funext d
  match d with
  | ⟨0, _⟩ => exact Fin.ext rfl

/-- The scatter-add over the extended reals at one element, with the landing updates given as any finite set. -/
theorem hostScatterAdd_eq {s si su : Shape} (d : ScatterDims s si su) {w : Nat} (x : s.Idx → EReal) (idx : IVec si w)
    (upd : su.Idx → EReal) (i : s.Idx) (T : Finset su.Idx) (hT : ∀ j, j ∈ T ↔ d.resultIdx? j idx = some i) :
    Ideal.hostScatterAdd d x idx upd i = x i + ∑ j ∈ T, upd j := by
  unfold Ideal.hostScatterAdd
  congr 1
  refine Finset.sum_congr ?_ (fun _ _ => rfl)
  ext j
  rw [Finset.mem_filter, hT]
  simp

/-- The operand of the scatter-add is zero everywhere. -/
theorem zero_apply (a : Fin 4096) :
    (broadcastInDim S4096 ![] bcast_S_S4096 (constant (F := Ideal) S_ .f32 0x00000000#32)) (ix1 a) = (0 : EReal) := by
  show Ideal.ofBits .f32 0x00000000#32 = 0
  exact Ideal.ofBits_zero_f32

/-- Update `j` lands on group `a` exactly when its group word, read signed, is `a`. -/
theorem land_apply (grp : IVec S16777216 32) (j : Fin 16777216) (a : Fin 4096) :
      (scatter_S4096_S16777216x1_S16777216_n_0_0_1.resultIdx? (ix1 j)
          (broadcastInDim S16777216x1 ![0] bcast_S16777216_S16777216x1_0 grp) = some (ix1 a))
        ↔ (grp (ix1 j)).toInt = (a.val : Int) := by
  rw [Cert.Hist.landing scatter_S4096_S16777216x1_S16777216_n_0_0_1 rfl rfl rfl rfl _ j a,
      StableHlo.Predicate.bcast_col1, ofFin_eq_ix1]

/-- A rank-1 index is determined by its coordinate. -/
theorem ix1_injective {n : Nat} : Function.Injective (fun j : Fin n => (ix1 j : (⟨1, ![n]⟩ : Shape).Idx)) :=
  fun _ _ h => congrFun h 0

/-- The scatter-add of the reference, as the instance's operation on its three operands. -/
theorem segSum_fn (grp : IVec S16777216 32) (u : FVec Ideal S16777216 .f32) :
    segSum (F := Ideal) grp u
      = FloatOps.hostScatterAdd scatter_S4096_S16777216x1_S16777216_n_0_0_1 .single
          (broadcastInDim S4096 ![] bcast_S_S4096 (constant (F := Ideal) S_ .f32 0x00000000#32))
          (broadcastInDim S16777216x1 ![0] bcast_S16777216_S16777216x1_0 grp) u := rfl

/-- The scatter-add at group `a`, over the extended reals: zero plus the updates whose group word, read signed, is `a`. -/
theorem segSum_apply (grp : IVec S16777216 32) (u : FVec Ideal S16777216 .f32) (a : Fin 4096) :
    segSum (F := Ideal) grp u (ix1 a) = ∑ j ∈ inGroup (fun j : Fin 16777216 => grp (ix1 j)) a, u (ix1 j) := by
  have key := hostScatterAdd_eq scatter_S4096_S16777216x1_S16777216_n_0_0_1
    (broadcastInDim S4096 ![] bcast_S_S4096 (constant (F := Ideal) S_ .f32 0x00000000#32))
    (broadcastInDim S16777216x1 ![0] bcast_S16777216_S16777216x1_0 grp) u (ix1 a)
    ((inGroup (fun j : Fin 16777216 => grp (ix1 j)) a).map ⟨_, ix1_injective⟩) (by
      intro i
      rw [Finset.mem_map]
      constructor
      · rintro ⟨j, hj, rfl⟩
        unfold inGroup at hj
        rw [Finset.mem_filter] at hj
        exact (land_apply grp j a).mpr hj.2
      · intro hi
        obtain ⟨k, rfl⟩ : ∃ k : Fin 16777216, i = ix1 k := ⟨i 0, eq_ix1 i⟩
        exact ⟨k, Finset.mem_filter.mpr ⟨Finset.mem_univ _, (land_apply grp k a).mp hi⟩, rfl⟩)
  rw [zero_apply, zero_add, Finset.sum_map] at key
  simp only [Function.Embedding.coeFn_mk] at key
  rw [segSum_fn, Ideal.hostScatterAdd_def]
  exact key

/-- The weight `[label = y]` of a sample, over the extended reals. -/
theorem weight_apply (y : BitVec 32) (lab : IVec S16777216 32) (j : Fin 16777216) :
    weight (F := Ideal) y lab (ix1 j) = ind (lab (ix1 j) = y) := by
  show (((IntOp.cmpi .eq (lab (ix1 j)) y).toNat : ℝ) : EReal) = _
  unfold IntOp.cmpi ind
  by_cases h : lab (ix1 j) = y
  · rw [if_pos h]; simp [h]
  · rw [if_neg h]; simp [h]

/-- The segment sums at group `a`, over the extended reals: the sums over the samples whose group word is `a`. -/
theorem rcnt1_apply (lab grp : IVec S16777216 32) (a : Fin 4096) :
    rcnt (F := Ideal) 1#32 lab grp (ix1 a) = ∑ j ∈ inGroup (fun j : Fin 16777216 => grp (ix1 j)) a, w1 (lab (ix1 j)) := by
  unfold rcnt
  rw [segSum_apply]
  refine Finset.sum_congr rfl fun j _ => ?_
  rw [weight_apply]
  rfl
theorem rcnt0_apply (lab grp : IVec S16777216 32) (a : Fin 4096) :
    rcnt (F := Ideal) 0#32 lab grp (ix1 a) = ∑ j ∈ inGroup (fun j : Fin 16777216 => grp (ix1 j)) a, w0 (lab (ix1 j)) := by
  unfold rcnt
  rw [segSum_apply]
  refine Finset.sum_congr rfl fun j _ => ?_
  rw [weight_apply]
  rfl
theorem rsum1_apply (x : FVec Ideal S16777216 .f32) (lab grp : IVec S16777216 32) (a : Fin 4096) :
    rsum (F := Ideal) 1#32 x lab grp (ix1 a) = ∑ j ∈ inGroup (fun j : Fin 16777216 => grp (ix1 j)) a, x (ix1 j) * w1 (lab (ix1 j)) := by
  unfold rsum
  rw [segSum_apply]
  refine Finset.sum_congr rfl fun j _ => ?_
  show x (ix1 j) * weight (F := Ideal) 1#32 lab (ix1 j) = _
  rw [weight_apply]
  rfl
theorem rsum0_apply (x : FVec Ideal S16777216 .f32) (lab grp : IVec S16777216 32) (a : Fin 4096) :
    rsum (F := Ideal) 0#32 x lab grp (ix1 a) = ∑ j ∈ inGroup (fun j : Fin 16777216 => grp (ix1 j)) a, x (ix1 j) * w0 (lab (ix1 j)) := by
  unfold rsum
  rw [segSum_apply]
  refine Finset.sum_congr rfl fun j _ => ?_
  show x (ix1 j) * weight (F := Ideal) 0#32 lab (ix1 j) = _
  rw [weight_apply]
  rfl

end Cert.ReferenceIdeal.RefTail

end
-- ==== Proof.PreFacts.lean ====
/-
  What the precondition says of the inputs, element by element.

  The precondition is the conjunction of two all-reductions: every probability has absolute value below +∞ — so it
  is a real number — and every label word is 0 or 1.
-/
import proofs.«424844_j37847251812699_3_alg».proof.Pre_finite_inputs
import proofs.«424844_j37847251812699_3_alg».proof.Proof.Gen.Pre_finite_inputs
import Idealize.ShloMosaic.Lib.ReduceAll
import Idealize.ShloMosaic.Lib.StableHlo.Predicate
import Idealize.ShloMosaic.Lib.ValueIdx
import Idealize.ShloMosaic.PureOps.Ideal

noncomputable section

namespace Cert.PreFacts

open Idealize.ShloMosaic Idealize.ShloMosaic.ValueIdx

/-- The result shape of an all-reduction has a single index. -/
instance : Subsingleton Cert.Pre_finite_inputs.S_.Idx := ⟨fun a b => funext fun d => d.elim0⟩

/-- An extended real whose absolute value lies strictly below +∞ is a real number. -/
theorem real_of_abs_lt_top (v : EReal) (hv : max v (-v) < (⊤ : EReal)) : ∃ r : ℝ, v = (r : EReal) := by
  induction v using EReal.rec with
  | bot => simp at hv
  | coe r => exact ⟨r, rfl⟩
  | top => simp at hv

/-- Under the precondition every probability is a real number and every label word is 0 or 1. -/
theorem of_pre (x : FVec Ideal Cert.Pre_finite_inputs.S16777216 .f32) (lab grp : IVec Cert.Pre_finite_inputs.S16777216 32)
    (h : Cert.Pre_finite_inputs.fn (F := Ideal) x lab grp = fun _ => 1#1) :
    (∀ j : Fin 16777216, ∃ r : ℝ, x (ix1 j) = (r : EReal))
      ∧ (∀ j : Fin 16777216, lab (ix1 j) = 0#32 ∨ lab (ix1 j) = 1#32) := by
  have h0 := congrFun h ValueIdx.ix0
  unfold Cert.Pre_finite_inputs.fn at h0
  dsimp only at h0
  obtain ⟨hA, hB⟩ := IntOp.andi_eq_one.1 h0
  refine ⟨fun j => ?_, fun j => ?_⟩
  · have e := Host.reduce_andi_all _ _ _ _ _ hA (ix1 j)
    change Ideal.cmp .olt (max (x (ix1 j)) (-(x (ix1 j)))) (Ideal.ofBits .f32 0x7F800000#32) = 1#1 at e
    have htop : Ideal.ofBits .f32 0x7F800000#32 = (⊤ : EReal) := by
      simp [Ideal.ofBits, Ideal.ieee]
    rw [htop] at e
    refine real_of_abs_lt_top _ ?_
    simpa [Ideal.cmp, StableHlo.Predicate.ofBool_eq_one_iff] using e
  · have e := Host.reduce_andi_all _ _ _ _ _ hB (ix1 j)
    change IntOp.ori (IntOp.cmpi .eq (lab (ix1 j)) 0#32) (IntOp.cmpi .eq (lab (ix1 j)) 1#32) = 1#1 at e
    rcases IntOp.ori_eq_one.1 e with e | e
    · exact Or.inl (IntOp.cmpi_eq.1 e)
    · exact Or.inr (IntOp.cmpi_eq.1 e)

end Cert.PreFacts

end
-- ==== Proof.Bridge.lean ====
/-
  The two programs end at one value.

  The kernel program's result is the loss of four statistics read off the region's table, the reference's the loss of
  its four segment sums. At a group `a` the table's entries are the sums of the channels over the samples of group `a`
  (a sample is counted exactly where its group word, read signed, is `a`; a word outside `0 … 4095` is counted
  nowhere, as an update with such a word lands nowhere); with finite probabilities the residual channel `p − p`
  vanishes, and with labels in `{0, 1}` the class-0 statistics are the totals less the class-1 ones. So the four
  statistics agree group by group, and the losses are equal.
-/
import proofs.«424844_j37847251812699_3_alg».proof.Defs
import proofs.«424844_j37847251812699_3_alg».proof.Proof.KValue
import proofs.«424844_j37847251812699_3_alg».proof.Proof.KTail
import proofs.«424844_j37847251812699_3_alg».proof.Proof.RefTail
import proofs.«424844_j37847251812699_3_alg».proof.Proof.HistMath
import proofs.«424844_j37847251812699_3_alg».proof.Proof.PreFacts

noncomputable section

namespace Cert.Proof.Bridge

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand Cert.KernelIdeal.KValue Cert.KernelIdeal.KTail Cert.Hist
open Cert.ReferenceIdeal.RefTail (rcnt rsum rcnt1_apply rcnt0_apply rsum1_apply rsum0_apply)

variable (m : (ℓ : Loc nD τ sig) → Buf (Elt Ideal) ℓ) (ρ : Dev nD → PrngReg)

/-- The kernel program's result on core `c`: the loss of the four statistics of the two slabs. -/
def kres (c : Dev nD) : Buf (Elt Ideal) ((c.tc : Thread nD τ).loc main_v71) :=
  (Cert.Loss.loss (F := Ideal) bcast_S_S4096 reducesTo_S4096_S_d0 h_S_ (kc1 (F := Ideal) (slabs m c)) (ks1 (F := Ideal) (slabs m c))
    (kc0 (F := Ideal) (slabs m c)) (ks0 (F := Ideal) (slabs m c)) : FVec Ideal Cert.Loss.S_ .f32)

/-- After the host operations that follow the region the result buffer holds it. -/
theorem v71_eq (c : Dev nD) : Pipeline.afterTail₀ cfgs (dats m) 0 (V0 m) tailOps c main_v71 = kres m c := by
  unfold Pipeline.afterTail₀
  refine (tail_result _).trans ?_
  have e : Pipeline.withArrays (cfgs 0).spec c (V0 m c) (fun w => (dats m 0 c).arrAt w (cfgs 0).N) (Proc.devRef .tc main_v3) = slabs m c :=
    (Pipeline.withArrays_arr spec0 launch0.win.arr_inj c _ _ 3).trans (final3 m c)
  rw [e]; rfl

/-- The kernel program's run, read: the result buffer at the loss, the arguments unchanged. -/
theorem kernel_run : θ_run defs (onTc (τ := τ) (main (F := Ideal))) ⟨m, fun _ => 0, ρ⟩ fun r => ∀ c : Dev nD,
      r.2.mem ((c.tc : Thread nD τ).loc main_v71) = kres m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v71 (Pipeline.mem_restRefs_of main_v71 (by decide) (by decide))).trans (v71_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

/-! ## The four statistics, group by group -/

section Stats

variable (c : Dev nD)
  (hfin : ∀ j : Fin 16777216, ∃ x : ℝ, m ((c.tc : Thread nD τ).loc main_arg0) (ix1 j) = (x : EReal))
  (hlab : ∀ j : Fin 16777216, m ((c.tc : Thread nD τ).loc main_arg1) (ix1 j) = 0#32 ∨ m ((c.tc : Thread nD τ).loc main_arg1) (ix1 j) = 1#32)

theorem both_slabs (r : Fin 96) (l : Fin 256) : both (slabs m c) r l = table (Pf m c) (Lf m c) (Gf m c) r l :=
  slabs_table m c r l

theorem kc1_eq : kc1 (F := Ideal) (slabs m c)
    = rcnt (F := Ideal) 1#32 (m ((c.tc : Thread nD τ).loc main_arg1)) (m ((c.tc : Thread nD τ).loc main_arg2)) := by
  funext i
  obtain ⟨a, rfl⟩ : ∃ a : Fin 4096, i = ix1 a := ⟨i 0, eq_ix1 i⟩
  rw [kc1_apply, rcnt1_apply, both_slabs]
  exact table_cnt1 (Pf m c) (Lf m c) (Gf m c) a

include hfin in
theorem ks1_eq : ks1 (F := Ideal) (slabs m c)
    = rsum (F := Ideal) 1#32 (m ((c.tc : Thread nD τ).loc main_arg0)) (m ((c.tc : Thread nD τ).loc main_arg1)) (m ((c.tc : Thread nD τ).loc main_arg2)) := by
  funext i
  obtain ⟨a, rfl⟩ : ∃ a : Fin 4096, i = ix1 a := ⟨i 0, eq_ix1 i⟩
  rw [ks1_apply, rsum1_apply, both_slabs, both_slabs]
  exact table_sum1 (Pf m c) (Lf m c) (Gf m c) hfin a

include hlab in
theorem kc0_eq : kc0 (F := Ideal) (slabs m c)
    = rcnt (F := Ideal) 0#32 (m ((c.tc : Thread nD τ).loc main_arg1)) (m ((c.tc : Thread nD τ).loc main_arg2)) := by
  funext i
  obtain ⟨a, rfl⟩ : ∃ a : Fin 4096, i = ix1 a := ⟨i 0, eq_ix1 i⟩
  rw [kc0_apply, rcnt0_apply, both_slabs, both_slabs]
  exact table_cnt0 (Pf m c) (Lf m c) (Gf m c) hlab a

include hfin hlab in
theorem ks0_eq : ks0 (F := Ideal) (slabs m c)
    = rsum (F := Ideal) 0#32 (m ((c.tc : Thread nD τ).loc main_arg0)) (m ((c.tc : Thread nD τ).loc main_arg1)) (m ((c.tc : Thread nD τ).loc main_arg2)) := by
  funext i
  obtain ⟨a, rfl⟩ : ∃ a : Fin 4096, i = ix1 a := ⟨i 0, eq_ix1 i⟩
  rw [ks0_apply, rsum0_apply, both_slabs, both_slabs, both_slabs, both_slabs]
  exact table_sum0 (Pf m c) (Lf m c) (Gf m c) hfin hlab a

end Stats

end Cert.Proof.Bridge

end
-- ==== Proof.lean ====
/-
  The certificate of a per-group score-matching loss computed through one-hot matrix products against its plain
  segment-sum reference.

  The kernel splits each group word into a high and a low part, builds per grid point a 96 × 32768 matrix of six
  channel values masked by the high part's one-hot and a 32768 × 256 one-hot of the low part, and accumulates their
  product over the 256 points of each core's row; the host adds the two cores' tables, reads the six channels apart
  and forms the loss. The reference scatter-adds the two classes' weights and weighted probabilities into the groups.
  Under the precondition — every probability finite, every label 0 or 1 — the four per-group statistics agree and the
  two programs apply the same remaining operations to them (Bridge). The three frames: each kernel program's region
  is run point by point with the host operations around it (KFrame, KIFrame); the reference is a straight line of
  host operations. The one rewrite of the idealization, a round trip through the narrower float format replaced by
  the identity, is the rule's own statement.
-/
import proofs.«424844_j37847251812699_3_alg».proof.Defs
import proofs.«424844_j37847251812699_3_alg».proof.Proof.Gen.Kernel
import proofs.«424844_j37847251812699_3_alg».proof.Proof.Gen.KernelIdeal
import proofs.«424844_j37847251812699_3_alg».proof.Proof.Gen.ReferenceIdeal
import proofs.«424844_j37847251812699_3_alg».proof.Proof.Gen.Pre_finite_inputs
import proofs.«424844_j37847251812699_3_alg».proof.Proof.KFrame
import proofs.«424844_j37847251812699_3_alg».proof.Proof.KIFrame
import proofs.«424844_j37847251812699_3_alg».proof.Proof.RefRunP
import proofs.«424844_j37847251812699_3_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- The idealization's one rewrite: widening what was just narrowed is the identity on extended reals. -/
theorem preserves : Cert.preserves_Kernel_KernelIdeal :=
  IdealRules.truncf_extf.statement _ .f32 .bf16

/-- Both programs end at the loss of the same four per-group statistics. -/
theorem algebraic : Cert.algebraic_KernelIdeal_ReferenceIdeal := by
  intro m ρ m' ρ' hpre hagree
  refine ⟨fun c => Bridge.kres m c, Bridge.kernel_run m ρ, ?_⟩
  refine (θ_run Cert.ReferenceIdeal.defs _ _).mono (fun _ h c => ⟨(h c).1.trans ?_, (h c).2⟩)
    (Cert.ReferenceIdeal.ValueP.run (F := Ideal) m' ρ')
  obtain ⟨hfin, hlab⟩ := Cert.PreFacts.of_pre _ _ _ (hpre c)
  rw [Cert.ReferenceIdeal.RefTail.res_eq, (hagree c).1, (hagree c).2.1, (hagree c).2.2]
  show _ = Bridge.kres m c
  unfold Bridge.kres
  rw [Bridge.kc1_eq m c, Bridge.ks1_eq m c hfin, Bridge.kc0_eq m c hlab, Bridge.ks0_eq m c hfin hlab]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
